-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S8x4096x1024 .f32) (main_arg1 : FVec F S8x4096x1024 .f32) (main_arg2 : FVec F S1024x1024 .f32) (main_arg3 : FVec F S1024x1024 .f32) (main_arg4 : FVec F S1024x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x4096x1024 : Shape := ⟨3, ![8, 4096, 1024]⟩
abbrev S1024x1024 : Shape := ⟨2, ![1024, 1024]⟩
abbrev S8x1024x1024 : Shape := ⟨3, ![8, 1024, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1024 : Shape := ⟨1, ![1024]⟩
abbrev S1024x1 : Shape := ⟨2, ![1024, 1]⟩

abbrev nBuf : Space → Nat
  | .hbm => 12
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8x4096x1024, .bf16⟩
  | .hbm, ⟨6, _⟩ => ⟨S8x4096x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S8x1024x1024, .bf16⟩
  | .hbm, ⟨11, _⟩ => ⟨S8x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | .local _ .vmem, ⟨9, _⟩ => ⟨S1x1024x1024, .bf16⟩
  | .local _ .vmem, ⟨10, _⟩ => ⟨S1x1024x1024, .bf16⟩
  | .local _ .vmem, ⟨11, _⟩ => ⟨S1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .f32⟩
  | .local _ .vmem, ⟨15, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_16 : BitVec 32 := 0#32
  let v23 : BitVec 1 := Scalar.cmpi .ne v22 c0_i32_16
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S1024x1024_S1024 : S1024x1024.Reduces [1] S1024
  shapeCasts_S1024_S1024x1 : S1024.ShapeCasts S1024x1
  broadcasts_S1024x1_S1024x1024 : S1024x1.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  dot_S512x1024_S1024x1024_S512x1024_1_0_0_1_n_n_wf : DotDims.WF S512x1024 S1024x1024 S512x1024 [1] [0] [0] [1] [] []
  dot_S512x1024_S512x1024_S1024x1024_0_0_1_1_n_n_wf : DotDims.WF S512x1024 S512x1024 S1024x1024 [0] [0] [1] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x4096x1024.size a
  hwx0_0 : ∀ i : grid0.Coords, EltTy.bits .bf16 = 32 ∨ (Rect.block (s := S8x4096x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x4096x1024.size a
  hwx0_1 : ∀ i : grid0.Coords, EltTy.bits .bf16 = 32 ∨ (Rect.block (s := S8x4096x1024) S1x512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S8x1024x1024.size a
  hwx0_4 : ∀ i : grid0.Coords, EltTy.bits .bf16 = 32 ∨ (Rect.block (s := S8x1024x1024) S1x1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x4096x1024.size a
  hwx1_0 : ∀ i : grid1.Coords, EltTy.bits .bf16 = 32 ∨ (Rect.block (s := S8x4096x1024) S1x1024x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S8x1024x1024.size a
  hwx1_2 : ∀ i : grid1.Coords, EltTy.bits .bf16 = 32 ∨ (Rect.block (s := S8x1024x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S8x4096x1024.size a
  hwx1_3 : ∀ i : grid1.Coords, EltTy.bits .f32 = 32 ∨ (Rect.block (s := S8x4096x1024) S1x1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_call0_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_call0_v1) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v5) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S8x1024x1024 : Shape := ⟨3, ![8, 1024, 1024]⟩
abbrev S_ : Shape := ⟨0, ![]⟩
abbrev S8x1024 : Shape := ⟨2, ![8, 1024]⟩
abbrev S8x1024x1 : Shape := ⟨3, ![8, 1024, 1]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8x4096x1024, .f32⟩
  | .hbm, ⟨6, _⟩ => ⟨S8x4096x1024, .f32⟩
  | .hbm, ⟨7, _⟩ => ⟨S8x4096x1024, .f32⟩
  | .hbm, ⟨8, _⟩ => ⟨S8x1024x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x1024x1024, .f32⟩
  | .hbm, ⟨14, _⟩ => ⟨S8x1024x1024, .f32⟩
  | .hbm, ⟨15, _⟩ => ⟨S_, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024x1, .f32⟩
  | .hbm, ⟨21, _⟩ => ⟨S8x1024x1024, .f32⟩
  | .hbm, ⟨22, _⟩ => ⟨S8x1024x1024, .f32⟩
  | .hbm, ⟨23, _⟩ => ⟨S8x1024x1024, .f32⟩
  | .hbm, ⟨24, _⟩ => ⟨S_, .f32⟩
  | .hbm, ⟨25, _⟩ => ⟨S8x1024, .f32⟩
  | .hbm, ⟨26, _⟩ => ⟨S8x1024x1, .f32⟩
  | .hbm, ⟨27, _⟩ => ⟨S8x1024x1024, .f32⟩
  | .hbm, ⟨28, _⟩ => ⟨S8x1024x1024, .f32⟩
  | .hbm, ⟨29, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S8x1024x1024 : S_.BroadcastsInDim S8x1024x1024 (![] : Fin 0 → Fin S8x1024x1024.rank)
  reducesTo_S8x1024x1024_S8x1024_d2 : S8x1024x1024.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x1024_0_1_2 : S8x1024x1.BroadcastsInDim S8x1024x1024 (![0, 1, 2] : Fin 3 → Fin S8x1024x1024.rank)
  dot_S8x4096x1024_S1024x1024_S8x4096x1024_2_0_01_1_n_n_wf : DotDims.WF S8x4096x1024 S1024x1024 S8x4096x1024 [2] [0] [0, 1] [1] [] []
  dot_S8x4096x1024_S8x4096x1024_S8x1024x1024_1_1_2_2_0_0_wf : DotDims.WF S8x4096x1024 S8x4096x1024 S8x1024x1024 [1] [1] [2] [2] [0] [0]
  dot_S8x4096x1024_S8x1024x1024_S8x4096x1024_2_1_1_2_0_0_wf : DotDims.WF S8x4096x1024 S8x1024x1024 S8x4096x1024 [2] [1] [1] [2] [0] [0]

variable [Facts₀]

def dot_S8x4096x1024_S1024x1024_S8x4096x1024_2_0_01_1_n_n : DotDims S8x4096x1024 S1024x1024 S8x4096x1024 where
  lhsContracting := [2]
  rhsContracting := [0]
  lhsNonContracting := [0, 1]
  rhsNonContracting := [1]
  lhsBatch := []
  rhsBatch := []
  wf := dot_S8x4096x1024_S1024x1024_S8x4096x1024_2_0_01_1_n_n_wf
def dot_S8x4096x1024_S8x4096x1024_S8x1024x1024_1_1_2_2_0_0 : DotDims S8x4096x1024 S8x4096x1024 S8x1024x1024 where
  lhsContracting := [1]
  rhsContracting := [1]
  lhsNonContracting := [2]
  rhsNonContracting := [2]
  lhsBatch := [0]
  rhsBatch := [0]
  wf := dot_S8x4096x1024_S8x4096x1024_S8x1024x1024_1_1_2_2_0_0_wf
def dot_S8x4096x1024_S8x1024x1024_S8x4096x1024_2_1_1_2_0_0 : DotDims S8x4096x1024 S8x1024x1024 S8x4096x1024 where
  lhsContracting := [2]
  rhsContracting := [1]
  lhsNonContracting := [1]
  rhsNonContracting := [2]
  lhsBatch := [0]
  rhsBatch := [0]
  wf := dot_S8x4096x1024_S8x1024x1024_S8x4096x1024_2_1_1_2_0_0_wf

class Facts : Prop extends Facts₀ where

variable [Facts]
-- ==== Proof.KBody.lean ====
/-
  The two kernel bodies as triples, over whole staging buffers.

  The score kernel, at one tile of 512 sequence positions: with the tile of x₁ and of x₂, Wq and Wk in its four input
  buffers it forms the two projected tiles, contracts their ROW axis into a 1024 × 1024 product and adds that to the
  accumulator it keeps in scratch — which it first sets to zero when the tile is the first of its batch, and, when the tile
  is the last, scales, passes row by row through the softmax and stores into the output buffer. At every other tile the
  output buffer is handed back as found.

  The mixing kernel, at one tile of 1024 positions: the tile of x₂ against Wv, then against the batch's weight matrix,
  stored into the output buffer.
-/
import proofs.«110314_j50130858279651_1_alg».proof.Proof.Gen.Kernel.Launch
import proofs.«110314_j50130858279651_1_alg».proof.Proof.Gen.Kernel.Skeleton
import proofs.«110314_j50130858279651_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The tile is the first of its batch: the kernel's first branch condition, from the grid coordinates. -/
abbrev isFirst (i : grid0.Coords) : Prop :=
  (Scalar.cmpi .ne (Scalar.extui (Scalar.cmpi .eq (BitVec.ofNat 32 (i 1).val) 0#32)) 0#32) = 1#1
/-- The tile is the last of its batch: the kernel's second branch condition. -/
abbrev isLast (i : grid0.Coords) : Prop := k0_cond2 i = 1#1

/-- The offsets of a whole-buffer access are all zero, in rank two and in rank three. -/
theorem zero2 : (![0, 0] : Fin 2 → Nat) = fun _ => 0 := funext fun a => by fin_cases a <;> rfl
theorem zero3 : (![0, 0, 0] : Fin 3 → Nat) = fun _ => 0 := funext fun a => by fin_cases a <;> rfl

/-- A buffer whose LAST store went through the whole-shape rectangle reads as that store's payload, whatever was
    stored before and whatever it held. -/
theorem read_writes_whole {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

set_option maxHeartbeats 1000000 in
/-- First tile: the accumulator ends at zero plus the tile's product; the output buffer is untouched. -/
theorem body0_first (c : Dev nD) (E : Set ℕ) (i : grid0.Coords) (hf : isFirst i) (hl : ¬isLast i)
    (arg2 : Memref sig .tc .vmem S1x512x1024 .bf16) (harg2 : arg2.IsWhole) (arg3 : Memref sig .tc .vmem S1x512x1024 .bf16) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S1x1024x1024 .bf16) (harg6 : arg6.IsWhole) (arg7 : Memref sig .tc .vmem S1024x1024 .f32) (harg7 : arg7.IsWhole)
    (x1b x2b : Vec F S1x512x1024 .bf16) (wq wk : Vec F S1024x1024 .bf16) (o : Vec F S1x1024x1024 .bf16) (K : PUnit → sProp 𝕄) :
    iprop(owns (c : Thread nD τ) arg2 fullShare x1b ∗ owns (c : Thread nD τ) arg3 fullShare x2b
        ∗ owns (c : Thread nD τ) arg4 fullShare wq ∗ owns (c : Thread nD τ) arg5 fullShare wk
        ∗ owns (c : Thread nD τ) arg6 fullShare o ∗ (∃ d, owns (c : Thread nD τ) arg7 fullShare d)
        ∗ (iprop(owns (c : Thread nD τ) arg2 fullShare x1b ∗ owns (c : Thread nD τ) arg3 fullShare x2b
            ∗ owns (c : Thread nD τ) arg4 fullShare wq ∗ owns (c : Thread nD τ) arg5 fullShare wk
            ∗ owns (c : Thread nD τ) arg6 fullShare o
            ∗ owns (c : Thread nD τ) arg7 fullShare (k0_pay2 x1b wq x2b wk (k0_pay1 (F := F)))) -∗ K ⟨⟩))
      ⊢ wp frame (wpE (defs₀ (F := F)) Variants.none c none) E
          (cc0__attn_weights_kernel i arg2 harg2 arg3 harg3 arg4 harg4 arg5 harg5 arg6 harg6 arg7 harg7) K := by
  simp only [cc0__attn_weights_kernel_eq_skeleton]; unfold cc0__attn_weights_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_words
  rw [read_writes_whole _ _ zero2, View.readCov_unit_zero (S := S1024x1024) _ zero2]
  simp only [View.readAt_eq_ld, harg2.read_unread, harg3.read_unread, harg4.read_unread, harg5.read_unread,
    View.ld_unit_zero (S := S1x512x1024) zero3, View.ld_unit_zero (S := S1024x1024) zero2]

set_option maxHeartbeats 1000000 in
/-- A tile that is neither first nor last: the accumulator gains the tile's product; the output buffer is untouched. -/
theorem body0_mid (c : Dev nD) (E : Set ℕ) (i : grid0.Coords) (hf : ¬isFirst i) (hl : ¬isLast i)
    (arg2 : Memref sig .tc .vmem S1x512x1024 .bf16) (harg2 : arg2.IsWhole) (arg3 : Memref sig .tc .vmem S1x512x1024 .bf16) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S1x1024x1024 .bf16) (harg6 : arg6.IsWhole) (arg7 : Memref sig .tc .vmem S1024x1024 .f32) (harg7 : arg7.IsWhole)
    (x1b x2b : Vec F S1x512x1024 .bf16) (wq wk : Vec F S1024x1024 .bf16) (o : Vec F S1x1024x1024 .bf16) (acc : Vec F S1024x1024 .f32) (K : PUnit → sProp 𝕄) :
    iprop(owns (c : Thread nD τ) arg2 fullShare x1b ∗ owns (c : Thread nD τ) arg3 fullShare x2b
        ∗ owns (c : Thread nD τ) arg4 fullShare wq ∗ owns (c : Thread nD τ) arg5 fullShare wk
        ∗ owns (c : Thread nD τ) arg6 fullShare o ∗ owns (c : Thread nD τ) arg7 fullShare acc
        ∗ (iprop(owns (c : Thread nD τ) arg2 fullShare x1b ∗ owns (c : Thread nD τ) arg3 fullShare x2b
            ∗ owns (c : Thread nD τ) arg4 fullShare wq ∗ owns (c : Thread nD τ) arg5 fullShare wk
            ∗ owns (c : Thread nD τ) arg6 fullShare o
            ∗ owns (c : Thread nD τ) arg7 fullShare (k0_pay2 x1b wq x2b wk acc)) -∗ K ⟨⟩))
      ⊢ wp frame (wpE (defs₀ (F := F)) Variants.none c none) E
          (cc0__attn_weights_kernel i arg2 harg2 arg3 harg3 arg4 harg4 arg5 harg5 arg6 harg6 arg7 harg7) K := by
  simp only [cc0__attn_weights_kernel_eq_skeleton]; unfold cc0__attn_weights_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  rw [read_writes_whole _ _ zero2]
  simp only [View.readAt_eq_ld, harg2.read_unread, harg3.read_unread, harg4.read_unread, harg5.read_unread,
    harg7.read_unread, View.ld_unit_zero (S := S1x512x1024) zero3, View.ld_unit_zero (S := S1024x1024) zero2]

set_option maxHeartbeats 1000000 in
/-- Last tile: the accumulator gains the tile's product, and the output buffer takes the softmax of the scaled total. -/
theorem body0_last (c : Dev nD) (E : Set ℕ) (i : grid0.Coords) (hf : ¬isFirst i) (hl : isLast i)
    (arg2 : Memref sig .tc .vmem S1x512x1024 .bf16) (harg2 : arg2.IsWhole) (arg3 : Memref sig .tc .vmem S1x512x1024 .bf16) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S1x1024x1024 .bf16) (harg6 : arg6.IsWhole) (arg7 : Memref sig .tc .vmem S1024x1024 .f32) (harg7 : arg7.IsWhole)
    (x1b x2b : Vec F S1x512x1024 .bf16) (wq wk : Vec F S1024x1024 .bf16) (acc : Vec F S1024x1024 .f32) (K : PUnit → sProp 𝕄) :
    iprop(owns (c : Thread nD τ) arg2 fullShare x1b ∗ owns (c : Thread nD τ) arg3 fullShare x2b
        ∗ owns (c : Thread nD τ) arg4 fullShare wq ∗ owns (c : Thread nD τ) arg5 fullShare wk
        ∗ (∃ d, owns (c : Thread nD τ) arg6 fullShare d) ∗ owns (c : Thread nD τ) arg7 fullShare acc
        ∗ (iprop(owns (c : Thread nD τ) arg2 fullShare x1b ∗ owns (c : Thread nD τ) arg3 fullShare x2b
            ∗ owns (c : Thread nD τ) arg4 fullShare wq ∗ owns (c : Thread nD τ) arg5 fullShare wk
            ∗ owns (c : Thread nD τ) arg6 fullShare (k0_pay3 (k0_pay2 x1b wq x2b wk acc))
            ∗ owns (c : Thread nD τ) arg7 fullShare (k0_pay2 x1b wq x2b wk acc)) -∗ K ⟨⟩))
      ⊢ wp frame (wpE (defs₀ (F := F)) Variants.none c none) E
          (cc0__attn_weights_kernel i arg2 harg2 arg3 harg3 arg4 harg4 arg5 harg5 arg6 harg6 arg7 harg7) K := by
  simp only [cc0__attn_weights_kernel_eq_skeleton]; unfold cc0__attn_weights_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4
  obtain rfl := harg5.eq_unread hf5; obtain rfl := harg7.eq_unread hf7
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [read_writes_whole _ _ zero3, View.readCov_unit_zero (S := S1024x1024) _ zero2]
    simp only [View.readAt_eq_ld, harg2.read_unread, harg3.read_unread, harg4.read_unread, harg5.read_unread,
      harg7.read_unread, View.ld_unit_zero (S := S1x512x1024) zero3, View.ld_unit_zero (S := S1024x1024) zero2]
  iexists _; isplitr
  swap; · iexact H7
  ipureintro
  sl_unfold_words
  rw [read_writes_whole _ _ zero2]
  simp only [View.readAt_eq_ld, harg2.read_unread, harg3.read_unread, harg4.read_unread, harg5.read_unread,
    harg7.read_unread, View.ld_unit_zero (S := S1x512x1024) zero3, View.ld_unit_zero (S := S1024x1024) zero2]

set_option maxHeartbeats 1000000 in
/-- The mixing kernel at any tile: the output buffer takes the tile's values against the weight matrix. -/
theorem body1_run (c : Dev nD) (E : Set ℕ) (i : grid1.Coords)
    (arg2 : Memref sig .tc .vmem S1x1024x1024 .bf16) (harg2 : arg2.IsWhole) (arg3 : Memref sig .tc .vmem S1024x1024 .bf16) (harg3 : arg3.IsWhole)
    (arg4 : Memref sig .tc .vmem S1x1024x1024 .bf16) (harg4 : arg4.IsWhole) (arg5 : Memref sig .tc .vmem S1x1024x1024 .f32) (harg5 : arg5.IsWhole)
    (x2b : Vec F S1x1024x1024 .bf16) (wv : Vec F S1024x1024 .bf16) (wt : Vec F S1x1024x1024 .bf16) (K : PUnit → sProp 𝕄) :
    iprop(owns (c : Thread nD τ) arg2 fullShare x2b ∗ owns (c : Thread nD τ) arg3 fullShare wv
        ∗ owns (c : Thread nD τ) arg4 fullShare wt ∗ (∃ d, owns (c : Thread nD τ) arg5 fullShare d)
        ∗ (iprop(owns (c : Thread nD τ) arg2 fullShare x2b ∗ owns (c : Thread nD τ) arg3 fullShare wv
            ∗ owns (c : Thread nD τ) arg4 fullShare wt
            ∗ owns (c : Thread nD τ) arg5 fullShare (k1_pay1 x2b wv wt)) -∗ K ⟨⟩))
      ⊢ wp frame (wpE (defs₀ (F := F)) Variants.none c none) E
          (cc1__context_kernel i arg2 harg2 arg3 harg3 arg4 harg4 arg5 harg5) K := by
  simp only [cc1__context_kernel_eq_skeleton]; unfold cc1__context_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3; obtain rfl := harg4.eq_unread hf4
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  rw [read_writes_whole _ _ zero3]
  simp only [View.readAt_eq_ld, harg2.read_unread, harg3.read_unread, harg4.read_unread,
    View.ld_unit_zero (S := S1x1024x1024) zero3, View.ld_unit_zero (S := S1024x1024) zero2]

end Cert.Kernel.Hand

end
-- ==== Proof.KDat.lean ====
/-
  What the two kernels leave, point by point, and their obligations to the pipeline.

  Score kernel, grid 8 × 8 taken row by row: position n is tile n mod 8 of batch n / 8. The accumulator after
  position n is the tile's product added to zero when the tile is the first of its batch, else to what position
  n − 1 left. The output buffer takes the softmax of the scaled accumulator at the last tile of each batch and is
  written back only there. Mixing kernel, grid 8 × 4: every position writes its own block.
-/
import proofs.«110314_j50130858279651_1_alg».proof.Proof.KBody
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions

-- the core's buffer contents when a kernel is entered
variable (V : (c : Dev nD) → (b : Ref sig .tc) → Buf (Elt F) ((c : Thread nD τ).loc b))

/-! # The score kernel -/

/-- Window `w`'s block at position `t`, read off its array as the kernel finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every position, fetched there or not. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem found0_3 {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- The tile at position `t` is the first of its batch exactly when `t` is a multiple of 8, -/
theorem first_iff : ∀ t : Fin cfg0.N, isFirst (grid0.coords t) ↔ t.val % 8 = 0 :=
  (by decide +kernel : ∀ t : Fin grid0.N, isFirst (grid0.coords t) ↔ t.val % 8 = 0)
/-- and the last exactly when `t` is 7 modulo 8. -/
theorem last_iff : ∀ t : Fin cfg0.N, isLast (grid0.coords t) ↔ t.val % 8 = 7 :=
  (by decide +kernel : ∀ t : Fin grid0.N, isLast (grid0.coords t) ↔ t.val % 8 = 7)

/-- The inputs are never idle; the output is idle, and not written back, away from the last tiles. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem idle0_4 : ∀ t : Fin cfg0.N, ¬isLast (grid0.coords t) → cfg0.idle 4 (grid0.coords t) = true := by decide +kernel
theorem noFlush0_4 : ∀ t : Fin cfg0.N, ¬isLast (grid0.coords t) → (cfg0.win 4).flush t = false := by decide +kernel
theorem live0_4 : ∀ t : Fin cfg0.N, isLast (grid0.coords t) → cfg0.idle 4 (grid0.coords t) = false := by decide +kernel

/-- The accumulator's buffer. -/
abbrev scM0 : Memref sig .tc .vmem S1024x1024 .f32 := Memref.whole cc0_scratch0

/-- THE ACCUMULATOR after position `n`: the tile's product added to zero at the first tile of a batch, else to what
    the position before left. -/
def accAt (c : Dev nD) : (n : ℕ) → n < cfg0.N → Vec F S1024x1024 .f32
  | 0, h => k0_pay2 (blk0 V c 0 ⟨0, h⟩) (blk0 V c 2 ⟨0, h⟩) (blk0 V c 1 ⟨0, h⟩) (blk0 V c 3 ⟨0, h⟩) (k0_pay1 (F := F))
  | n + 1, h => k0_pay2 (blk0 V c 0 ⟨n + 1, h⟩) (blk0 V c 2 ⟨n + 1, h⟩) (blk0 V c 1 ⟨n + 1, h⟩) (blk0 V c 3 ⟨n + 1, h⟩)
      (if (n + 1) % 8 = 0 then k0_pay1 (F := F) else accAt c n (Nat.lt_of_succ_lt h))

theorem accAt_first (c : Dev nD) (t : Fin cfg0.N) (h : t.val % 8 = 0) :
    accAt V c t.val t.isLt = k0_pay2 (blk0 V c 0 t) (blk0 V c 2 t) (blk0 V c 1 t) (blk0 V c 3 t) (k0_pay1 (F := F)) := by
  obtain ⟨n, hn⟩ := t
  cases n with
  | zero => rfl
  | succ n => show k0_pay2 _ _ _ _ (if (n + 1) % 8 = 0 then _ else _) = _; rw [if_pos h]

theorem accAt_next (c : Dev nD) (t : Fin cfg0.N) (h : ¬t.val % 8 = 0) :
    accAt V c t.val t.isLt = k0_pay2 (blk0 V c 0 t) (blk0 V c 2 t) (blk0 V c 1 t) (blk0 V c 3 t)
      (accAt V c (t.val - 1) (Nat.lt_of_le_of_lt (Nat.sub_le _ _) t.isLt)) := by
  obtain ⟨n, hn⟩ := t
  cases n with
  | zero => exact absurd (Nat.zero_mod _) h
  | succ n => show k0_pay2 _ _ _ _ (if (n + 1) % 8 = 0 then _ else _) = _; rw [if_neg h]; rfl

/-- The scoped buffers that are neither the score kernel's staging buffers nor its accumulator: the mixing kernel's
    staging buffers, each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The invariant the pipeline hands a kernel that names no scratch contents, with the accumulator split off. -/
theorem PhiA0_eq (c : Dev nD) :
    (Pipeline.ΦA spec0 c : sProp 𝕄)
      = iprop(((∃ d, owns (c : Thread nD τ) scM0 fullShare d) ∗ others0 (F := F) c) ∗ (∃ r, prngReg c r)) := by
  unfold Pipeline.ΦA others0; rw [scopedRest0_eq]; simp only [scM0, owns_whole]; try rfl

/-- The invariant before position `n`: before the first, the accumulator at anything; afterwards at what the
    position before left. -/
def PhiS (c : Dev nD) : (n : ℕ) → n ≤ cfg0.N → sProp 𝕄
  | 0, _ => Pipeline.ΦA spec0 c
  | n + 1, hn => iprop((owns (c : Thread nD τ) scM0 fullShare (accAt V c n hn) ∗ others0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM0 fullShare (accAt V c n hn) ∗ others0 (F := F) c) ∗ (∃ r, prngReg c r)) := rfl
theorem PhiS_pos (c : Dev nD) (n : ℕ) (h : n ≤ cfg0.N) (hz : n ≠ 0) :
    PhiS V c n h = iprop((owns (c : Thread nD τ) scM0 fullShare (accAt V c (n - 1) (by omega)) ∗ others0 (F := F) c) ∗ (∃ r, prngReg c r)) := by
  cases n with
  | zero => exact absurd rfl hz
  | succ n => rfl

/-- The score kernel's proof data on core `c`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => k0_pay3 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = k0_pay3 (accAt V c t.val t.isLt) := by dsimp only [dat0]

theorem before0_0 (c : Dev nD) (t : Fin cfg0.N) (d) : (dat0 V c).before 0 t d = blk0 V c 0 t :=
  found0_0 V (dat0 V c) (A_eq0 V c 0) (after0_0 V c) t d
theorem before0_1 (c : Dev nD) (t : Fin cfg0.N) (d) : (dat0 V c).before 1 t d = blk0 V c 1 t :=
  found0_1 V (dat0 V c) (A_eq0 V c 1) (after0_1 V c) t d
theorem before0_2 (c : Dev nD) (t : Fin cfg0.N) (d) : (dat0 V c).before 2 t d = blk0 V c 2 t :=
  found0_2 V (dat0 V c) (A_eq0 V c 2) (after0_2 V c) t d
theorem before0_3 (c : Dev nD) (t : Fin cfg0.N) (d) : (dat0 V c).before 3 t d = blk0 V c 3 t :=
  found0_3 V (dat0 V c) (A_eq0 V c 3) (after0_3 V c) t d

theorem Phi0_castSucc (c : Dev nD) (t : Fin cfg0.N) :
    (dat0 V c).Φ t.castSucc = PhiS V c t.val (Nat.le_of_lt t.isLt) := by
  dsimp only [dat0]; simp only [Fin.coe_castSucc]

/-- What the kernel is called with at position `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (st0_0 t) fullShare (blk0 V c 0 t) := by
  unfold Dat.leavesExact; rw [live0_0 t, after0_0]
theorem leaves0_1 (c : Dev nD) (t : Fin cfg0.N) : (dat0 V c).leavesExact 1 t = owns (c : Thread nD τ) (st0_1 t) fullShare (blk0 V c 1 t) := by
  unfold Dat.leavesExact; rw [live0_1 t, after0_1]
theorem leaves0_2 (c : Dev nD) (t : Fin cfg0.N) : (dat0 V c).leavesExact 2 t = owns (c : Thread nD τ) (st0_2 t) fullShare (blk0 V c 2 t) := by
  unfold Dat.leavesExact; rw [live0_2 t, after0_2]
theorem leaves0_3 (c : Dev nD) (t : Fin cfg0.N) : (dat0 V c).leavesExact 3 t = owns (c : Thread nD τ) (st0_3 t) fullShare (blk0 V c 3 t) := by
  unfold Dat.leavesExact; rw [live0_3 t, after0_3]
theorem leaves0_4_last (c : Dev nD) (t : Fin cfg0.N) (hl : isLast (grid0.coords t)) :
    (dat0 V c).leavesExact 4 t = owns (c : Thread nD τ) (st0_4 t) fullShare (k0_pay3 (accAt V c t.val t.isLt)) := by
  unfold Dat.leavesExact; rw [live0_4 t hl, after0_4]

set_option maxHeartbeats 4000000 in
/-- The score kernel at any position: by the tile's place in its batch. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3]
  have hN : t.val < 64 := lt_of_lt_of_eq t.isLt (show cfg0.N = 64 from N_0)
  by_cases h0 : t.val % 8 = 0
  · have hf : isFirst (grid0.coords t) := (first_iff t).mpr h0
    have hl : ¬isLast (grid0.coords t) := fun h => by have := (last_iff t).mp h; omega
    rw [Dat.leavesExact_idle (dat0 V c) 4 t (idle0_4 t hl) (noFlush0_4 t hl), accAt_first V c t h0]
    by_cases hz : t.val = 0
    · rw [Phi0_castSucc V c t, PhiS_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply (body0_first c Set.univ (grid0.coords t) hf hl _ _ _ _ _ _ _ _ _ _ _ _ (blk0 V c 0 t) (blk0 V c 1 t) (blk0 V c 2 t) (blk0 V c 3 t) ((dat0 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [Phi0_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (body0_first c Set.univ (grid0.coords t) hf hl _ _ _ _ _ _ _ _ _ _ _ _ (blk0 V c 0 t) (blk0 V c 1 t) (blk0 V c 2 t) (blk0 V c 3 t) ((dat0 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hf : ¬isFirst (grid0.coords t) := fun h => h0 ((first_iff t).mp h)
    have hz : t.val ≠ 0 := fun e => h0 (by rw [e])
    rw [Phi0_castSucc V c t, PhiS_pos V c _ _ hz, accAt_next V c t h0]
    by_cases h1 : t.val % 8 = 7
    · have hl : isLast (grid0.coords t) := (last_iff t).mpr h1
      rw [leaves0_4_last V c t hl, accAt_next V c t h0]
      iintro ⟨⟨⟨HS, HR⟩, Hg⟩, Ho, ⟨%d0, H0⟩, ⟨%d1, H1⟩, ⟨%d2, H2⟩, ⟨%d3, H3⟩, ⟨%d4, H4⟩⟩
      iapply (body0_last c Set.univ (grid0.coords t) hf hl _ _ _ _ _ _ _ _ _ _ _ _ (blk0 V c 0 t) (blk0 V c 1 t) (blk0 V c 2 t) (blk0 V c 3 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · have hl : ¬isLast (grid0.coords t) := fun h => h1 ((last_iff t).mp h)
      rw [Dat.leavesExact_idle (dat0 V c) 4 t (idle0_4 t hl) (noFlush0_4 t hl)]
      iintro ⟨⟨⟨HS, HR⟩, Hg⟩, Ho, ⟨%d0, H0⟩, ⟨%d1, H1⟩, ⟨%d2, H2⟩, ⟨%d3, H3⟩, ⟨%d4, H4⟩⟩
      iapply (body0_mid c Set.univ (grid0.coords t) hf hl _ _ _ _ _ _ _ _ _ _ _ _ (blk0 V c 0 t) (blk0 V c 1 t) (blk0 V c 2 t) (blk0 V c 3 t) ((dat0 V c).before 4 t d4) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The score kernel's obligation to the pipeline, at every position. -/
theorem body_obligation0 (c : Dev nD) : BodyObligation (dat0 (F := F) V c) (defs₀ (F := F)) Variants.none () Set.univ := fun t => by
  rw [bigSep_W0, bigSep_W0]
  exact sound_body0 V c t

/-- Entering: the pipeline's invariant is the one before the first position. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- Leaving: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS, HR⟩, Hg⟩
  isplitl [HS HR]
  · isplitl [HS]; · iexists _; iexact HS
    iexact HR
  iexact Hg

/-! # The mixing kernel -/

/-- Window `w`'s block at position `t`, read off its array as the kernel finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The mixing kernel's proof data on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => k1_pay1 (blk1 V c 0 t) (blk1 V c 1 t) (blk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = k1_pay1 (blk1 V c 0 t) (blk1 V c 1 t) (blk1 V c 2 t) := by dsimp only [dat1]

theorem before1_0 (c : Dev nD) (t : Fin cfg1.N) (d) : (dat1 V c).before 0 t d = blk1 V c 0 t :=
  found1_0 V (dat1 V c) (A_eq1 V c 0) (after1_0 V c) t d
theorem before1_1 (c : Dev nD) (t : Fin cfg1.N) (d) : (dat1 V c).before 1 t d = blk1 V c 1 t :=
  found1_1 V (dat1 V c) (A_eq1 V c 1) (after1_1 V c) t d
theorem before1_2 (c : Dev nD) (t : Fin cfg1.N) (d) : (dat1 V c).before 2 t d = blk1 V c 2 t :=
  found1_2 V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (body1_run c Set.univ (grid1.coords t) _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KRun.lean ====
/-
  The whole program's run: five casts on the host, the score kernel, the mixing kernel.

  The buffers' contents are followed from the launch memory through the three items: after the casts; after the score
  kernel, whose output array holds what its write-backs left and whose other buffers are as entered; after the mixing
  kernel likewise. Each kernel is entered from, and left at, "every unscoped buffer whole at the boundary's contents,
  the generator register at some state, nothing owed"; the score kernel's accumulator is named only inside its own
  invariant. At the end every unscoped buffer is read at the last boundary's contents: the arguments as launched,
  the result array at what the mixing kernel's write-backs left.
-/
import proofs.«110314_j50130858279651_1_alg».proof.Proof.KDat

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => m (c, b)
/-- After the casts. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the score kernel. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exit0_arr (c : Dev nD) (w : Fin cfg0.W) : (dat0 (V1 m) c).arrAt w cfg0.N = V2 m c (Pipeline.arrRef spec0 w) :=
  (W2_arr m c w).symm
theorem exit0_rest (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the mixing kernel. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem exit1_arr (c : Dev nD) (w : Fin cfg1.W) : (dat1 (V2 m) c).arrAt w cfg1.N = V3 m c (Pipeline.arrRef spec1 w) :=
  (W3_arr m c w).symm
theorem exit1_rest (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The casts write only their own results. -/
theorem W1_of_not_written (c : Dev nD) (b : Ref sig .tc)
    (hb : b ∉ ([main_call0_v0, main_call0_v1, main_call0_v2, main_call0_v3, main_call0_v4] : List (Ref sig .tc))) :
    W1 m c (Proc.devRef .tc b) = W0 m c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, Finset.mem_singleton]
    simp only [List.mem_cons, List.mem_nil_iff, or_false, not_or] at hb
    obtain ⟨h0, h1, h2, h3, h4⟩ := hb
    exact ⟨StableHlo.devRef_ne_of_ne h0, StableHlo.devRef_ne_of_ne h1, StableHlo.devRef_ne_of_ne h2, StableHlo.devRef_ne_of_ne h3, StableHlo.devRef_ne_of_ne h4⟩))

/-- An argument array is written by no cast and is no kernel's array: it ends as launched. -/
theorem W3_arg (c : Dev nD) (b : Ref sig .tc) (h1 : ∀ w, Pipeline.arrRef spec1 w ≠ b) (h0 : ∀ w, Pipeline.arrRef spec0 w ≠ b)
    (hb : b ∉ ([main_call0_v0, main_call0_v1, main_call0_v2, main_call0_v3, main_call0_v4] : List (Ref sig .tc))) :
    W3 m c (Proc.devRef .tc b) = m ((c : Thread nD τ).loc b) :=
  (W3_of_ne m c b h1).trans ((W2_of_ne m c b h0).trans ((W1_of_not_written m c b hb).trans rfl))

theorem W3_main_arg0 (c : Dev nD) : W3 m c (Proc.devRef .tc main_arg0) = m ((c : Thread nD τ).loc main_arg0) :=
  W3_arg m c main_arg0 (by decide) (by decide) (by decide)
theorem W3_main_arg1 (c : Dev nD) : W3 m c (Proc.devRef .tc main_arg1) = m ((c : Thread nD τ).loc main_arg1) :=
  W3_arg m c main_arg1 (by decide) (by decide) (by decide)
theorem W3_main_arg2 (c : Dev nD) : W3 m c (Proc.devRef .tc main_arg2) = m ((c : Thread nD τ).loc main_arg2) :=
  W3_arg m c main_arg2 (by decide) (by decide) (by decide)
theorem W3_main_arg3 (c : Dev nD) : W3 m c (Proc.devRef .tc main_arg3) = m ((c : Thread nD τ).loc main_arg3) :=
  W3_arg m c main_arg3 (by decide) (by decide) (by decide)
theorem W3_main_arg4 (c : Dev nD) : W3 m c (Proc.devRef .tc main_arg4) = m ((c : Thread nD τ).loc main_arg4) :=
  W3_arg m c main_arg4 (by decide) (by decide) (by decide)
/-- The result array ends at what the mixing kernel's write-backs left. -/
theorem W3_main_v0 (c : Dev nD) : W3 m c (Proc.devRef .tc main_v0) = (dat1 (V2 m) c).arrAt 3 cfg1.N :=
  W3_arr m c 3

/-! ## The proof data family and the thread state -/

abbrev adm : (p : Fin 2) → (pcfgs (F := F) p).Adm := fun p => (cfgs p).toPCfg_adm
/-- Each kernel's proof data at its own entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

/-- The casts as a segment of the run. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state but for the owes. -/
abbrev Tₙ (c : Dev nD) : sProp 𝕄 := iprop(StableHlo.held (c : Thread nD τ) (Pipeline.ucRefs τ sig) (W3 m c) ∗ ∃ r, prngReg c r)

/-! ## The kernels as segments -/

set_option backward.isDefEq.respectTransparency.types false in
/-- The score kernel: entered from the contents after the casts, left at `W2`. Its invariant is entered with the
    accumulator at anything and left with its contents forgotten. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    have hA : (Pipeline.ΦA spec0 c : sProp 𝕄)
        ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    rw [Pipeline.ownSems0_none]
    exact (hout0 (V1 m) c).trans hA
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The mixing kernel: entered from `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- Every weakly fair execution from memory `m` with zero counters terminates, nothing faulting, and every unscoped
    buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

/-- The run with the result array named. -/
theorem run_named : θ_run defs (onTc (τ := τ) (main (F := F))) ⟨m, fun _ => 0, ρ⟩ (fun r => ∀ c : Dev nD,
      r.2.mem ((c.tc : Thread nD τ).loc main_v0) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v0 (by decide))).trans (W3_main_v0 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.Kernel.Hand

end
-- ==== Proof.KiBody.lean ====
/-
  The two kernel bodies as triples, over whole staging buffers.

  The score kernel, at one tile of 512 sequence positions: with the tile of x₁ and of x₂, Wq and Wk in its four input
  buffers it forms the two projected tiles, contracts their ROW axis into a 1024 × 1024 product and adds that to the
  accumulator it keeps in scratch — which it first sets to zero when the tile is the first of its batch, and, when the tile
  is the last, scales, passes row by row through the softmax and stores into the output buffer. At every other tile the
  output buffer is handed back as found.

  The mixing kernel, at one tile of 1024 positions: the tile of x₂ against Wv, then against the batch's weight matrix,
  stored into the output buffer.
-/
import proofs.«110314_j50130858279651_1_alg».proof.Proof.Gen.KernelIdeal.Launch
import proofs.«110314_j50130858279651_1_alg».proof.Proof.Gen.KernelIdeal.Skeleton
import proofs.«110314_j50130858279651_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The tile is the first of its batch: the kernel's first branch condition, from the grid coordinates. -/
abbrev isFirst (i : grid0.Coords) : Prop :=
  (Scalar.cmpi .ne (Scalar.extui (Scalar.cmpi .eq (BitVec.ofNat 32 (i 1).val) 0#32)) 0#32) = 1#1
/-- The tile is the last of its batch: the kernel's second branch condition. -/
abbrev isLast (i : grid0.Coords) : Prop := k0_cond2 i = 1#1

/-- The offsets of a whole-buffer access are all zero, in rank two and in rank three. -/
theorem zero2 : (![0, 0] : Fin 2 → Nat) = fun _ => 0 := funext fun a => by fin_cases a <;> rfl
theorem zero3 : (![0, 0, 0] : Fin 3 → Nat) = fun _ => 0 := funext fun a => by fin_cases a <;> rfl

/-- A buffer whose LAST store went through the whole-shape rectangle reads as that store's payload, whatever was
    stored before and whatever it held. -/
theorem read_writes_whole {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

set_option maxHeartbeats 1000000 in
/-- First tile: the accumulator ends at zero plus the tile's product; the output buffer is untouched. -/
theorem body0_first (c : Dev nD) (E : Set ℕ) (i : grid0.Coords) (hf : isFirst i) (hl : ¬isLast i)
    (arg2 : Memref sig .tc .vmem S1x512x1024 .bf16) (harg2 : arg2.IsWhole) (arg3 : Memref sig .tc .vmem S1x512x1024 .bf16) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S1x1024x1024 .bf16) (harg6 : arg6.IsWhole) (arg7 : Memref sig .tc .vmem S1024x1024 .f32) (harg7 : arg7.IsWhole)
    (x1b x2b : Vec F S1x512x1024 .bf16) (wq wk : Vec F S1024x1024 .bf16) (o : Vec F S1x1024x1024 .bf16) (K : PUnit → sProp 𝕄) :
    iprop(owns (c : Thread nD τ) arg2 fullShare x1b ∗ owns (c : Thread nD τ) arg3 fullShare x2b
        ∗ owns (c : Thread nD τ) arg4 fullShare wq ∗ owns (c : Thread nD τ) arg5 fullShare wk
        ∗ owns (c : Thread nD τ) arg6 fullShare o ∗ (∃ d, owns (c : Thread nD τ) arg7 fullShare d)
        ∗ (iprop(owns (c : Thread nD τ) arg2 fullShare x1b ∗ owns (c : Thread nD τ) arg3 fullShare x2b
            ∗ owns (c : Thread nD τ) arg4 fullShare wq ∗ owns (c : Thread nD τ) arg5 fullShare wk
            ∗ owns (c : Thread nD τ) arg6 fullShare o
            ∗ owns (c : Thread nD τ) arg7 fullShare (k0_pay2 x1b wq x2b wk (k0_pay1 (F := F)))) -∗ K ⟨⟩))
      ⊢ wp frame (wpE (defs₀ (F := F)) Variants.none c none) E
          (cc0__attn_weights_kernel i arg2 harg2 arg3 harg3 arg4 harg4 arg5 harg5 arg6 harg6 arg7 harg7) K := by
  simp only [cc0__attn_weights_kernel_eq_skeleton]; unfold cc0__attn_weights_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_words
  rw [read_writes_whole _ _ zero2, View.readCov_unit_zero (S := S1024x1024) _ zero2]
  simp only [View.readAt_eq_ld, harg2.read_unread, harg3.read_unread, harg4.read_unread, harg5.read_unread,
    View.ld_unit_zero (S := S1x512x1024) zero3, View.ld_unit_zero (S := S1024x1024) zero2]

set_option maxHeartbeats 1000000 in
/-- A tile that is neither first nor last: the accumulator gains the tile's product; the output buffer is untouched. -/
theorem body0_mid (c : Dev nD) (E : Set ℕ) (i : grid0.Coords) (hf : ¬isFirst i) (hl : ¬isLast i)
    (arg2 : Memref sig .tc .vmem S1x512x1024 .bf16) (harg2 : arg2.IsWhole) (arg3 : Memref sig .tc .vmem S1x512x1024 .bf16) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S1x1024x1024 .bf16) (harg6 : arg6.IsWhole) (arg7 : Memref sig .tc .vmem S1024x1024 .f32) (harg7 : arg7.IsWhole)
    (x1b x2b : Vec F S1x512x1024 .bf16) (wq wk : Vec F S1024x1024 .bf16) (o : Vec F S1x1024x1024 .bf16) (acc : Vec F S1024x1024 .f32) (K : PUnit → sProp 𝕄) :
    iprop(owns (c : Thread nD τ) arg2 fullShare x1b ∗ owns (c : Thread nD τ) arg3 fullShare x2b
        ∗ owns (c : Thread nD τ) arg4 fullShare wq ∗ owns (c : Thread nD τ) arg5 fullShare wk
        ∗ owns (c : Thread nD τ) arg6 fullShare o ∗ owns (c : Thread nD τ) arg7 fullShare acc
        ∗ (iprop(owns (c : Thread nD τ) arg2 fullShare x1b ∗ owns (c : Thread nD τ) arg3 fullShare x2b
            ∗ owns (c : Thread nD τ) arg4 fullShare wq ∗ owns (c : Thread nD τ) arg5 fullShare wk
            ∗ owns (c : Thread nD τ) arg6 fullShare o
            ∗ owns (c : Thread nD τ) arg7 fullShare (k0_pay2 x1b wq x2b wk acc)) -∗ K ⟨⟩))
      ⊢ wp frame (wpE (defs₀ (F := F)) Variants.none c none) E
          (cc0__attn_weights_kernel i arg2 harg2 arg3 harg3 arg4 harg4 arg5 harg5 arg6 harg6 arg7 harg7) K := by
  simp only [cc0__attn_weights_kernel_eq_skeleton]; unfold cc0__attn_weights_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  rw [read_writes_whole _ _ zero2]
  simp only [View.readAt_eq_ld, harg2.read_unread, harg3.read_unread, harg4.read_unread, harg5.read_unread,
    harg7.read_unread, View.ld_unit_zero (S := S1x512x1024) zero3, View.ld_unit_zero (S := S1024x1024) zero2]

set_option maxHeartbeats 1000000 in
/-- Last tile: the accumulator gains the tile's product, and the output buffer takes the softmax of the scaled total. -/
theorem body0_last (c : Dev nD) (E : Set ℕ) (i : grid0.Coords) (hf : ¬isFirst i) (hl : isLast i)
    (arg2 : Memref sig .tc .vmem S1x512x1024 .bf16) (harg2 : arg2.IsWhole) (arg3 : Memref sig .tc .vmem S1x512x1024 .bf16) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S1x1024x1024 .bf16) (harg6 : arg6.IsWhole) (arg7 : Memref sig .tc .vmem S1024x1024 .f32) (harg7 : arg7.IsWhole)
    (x1b x2b : Vec F S1x512x1024 .bf16) (wq wk : Vec F S1024x1024 .bf16) (acc : Vec F S1024x1024 .f32) (K : PUnit → sProp 𝕄) :
    iprop(owns (c : Thread nD τ) arg2 fullShare x1b ∗ owns (c : Thread nD τ) arg3 fullShare x2b
        ∗ owns (c : Thread nD τ) arg4 fullShare wq ∗ owns (c : Thread nD τ) arg5 fullShare wk
        ∗ (∃ d, owns (c : Thread nD τ) arg6 fullShare d) ∗ owns (c : Thread nD τ) arg7 fullShare acc
        ∗ (iprop(owns (c : Thread nD τ) arg2 fullShare x1b ∗ owns (c : Thread nD τ) arg3 fullShare x2b
            ∗ owns (c : Thread nD τ) arg4 fullShare wq ∗ owns (c : Thread nD τ) arg5 fullShare wk
            ∗ owns (c : Thread nD τ) arg6 fullShare (k0_pay3 (k0_pay2 x1b wq x2b wk acc))
            ∗ owns (c : Thread nD τ) arg7 fullShare (k0_pay2 x1b wq x2b wk acc)) -∗ K ⟨⟩))
      ⊢ wp frame (wpE (defs₀ (F := F)) Variants.none c none) E
          (cc0__attn_weights_kernel i arg2 harg2 arg3 harg3 arg4 harg4 arg5 harg5 arg6 harg6 arg7 harg7) K := by
  simp only [cc0__attn_weights_kernel_eq_skeleton]; unfold cc0__attn_weights_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4
  obtain rfl := harg5.eq_unread hf5; obtain rfl := harg7.eq_unread hf7
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [read_writes_whole _ _ zero3, View.readCov_unit_zero (S := S1024x1024) _ zero2]
    simp only [View.readAt_eq_ld, harg2.read_unread, harg3.read_unread, harg4.read_unread, harg5.read_unread,
      harg7.read_unread, View.ld_unit_zero (S := S1x512x1024) zero3, View.ld_unit_zero (S := S1024x1024) zero2]
  iexists _; isplitr
  swap; · iexact H7
  ipureintro
  sl_unfold_words
  rw [read_writes_whole _ _ zero2]
  simp only [View.readAt_eq_ld, harg2.read_unread, harg3.read_unread, harg4.read_unread, harg5.read_unread,
    harg7.read_unread, View.ld_unit_zero (S := S1x512x1024) zero3, View.ld_unit_zero (S := S1024x1024) zero2]

set_option maxHeartbeats 1000000 in
/-- The mixing kernel at any tile: the output buffer takes the tile's values against the weight matrix. -/
theorem body1_run (c : Dev nD) (E : Set ℕ) (i : grid1.Coords)
    (arg2 : Memref sig .tc .vmem S1x1024x1024 .bf16) (harg2 : arg2.IsWhole) (arg3 : Memref sig .tc .vmem S1024x1024 .bf16) (harg3 : arg3.IsWhole)
    (arg4 : Memref sig .tc .vmem S1x1024x1024 .bf16) (harg4 : arg4.IsWhole) (arg5 : Memref sig .tc .vmem S1x1024x1024 .f32) (harg5 : arg5.IsWhole)
    (x2b : Vec F S1x1024x1024 .bf16) (wv : Vec F S1024x1024 .bf16) (wt : Vec F S1x1024x1024 .bf16) (K : PUnit → sProp 𝕄) :
    iprop(owns (c : Thread nD τ) arg2 fullShare x2b ∗ owns (c : Thread nD τ) arg3 fullShare wv
        ∗ owns (c : Thread nD τ) arg4 fullShare wt ∗ (∃ d, owns (c : Thread nD τ) arg5 fullShare d)
        ∗ (iprop(owns (c : Thread nD τ) arg2 fullShare x2b ∗ owns (c : Thread nD τ) arg3 fullShare wv
            ∗ owns (c : Thread nD τ) arg4 fullShare wt
            ∗ owns (c : Thread nD τ) arg5 fullShare (k1_pay1 x2b wv wt)) -∗ K ⟨⟩))
      ⊢ wp frame (wpE (defs₀ (F := F)) Variants.none c none) E
          (cc1__context_kernel i arg2 harg2 arg3 harg3 arg4 harg4 arg5 harg5) K := by
  simp only [cc1__context_kernel_eq_skeleton]; unfold cc1__context_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3; obtain rfl := harg4.eq_unread hf4
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  rw [read_writes_whole _ _ zero3]
  simp only [View.readAt_eq_ld, harg2.read_unread, harg3.read_unread, harg4.read_unread,
    View.ld_unit_zero (S := S1x1024x1024) zero3, View.ld_unit_zero (S := S1024x1024) zero2]

end Cert.KernelIdeal.Hand

end
-- ==== Proof.KiDat.lean ====
/-
  What the two kernels leave, point by point, and their obligations to the pipeline.

  Score kernel, grid 8 × 8 taken row by row: position n is tile n mod 8 of batch n / 8. The accumulator after
  position n is the tile's product added to zero when the tile is the first of its batch, else to what position
  n − 1 left. The output buffer takes the softmax of the scaled accumulator at the last tile of each batch and is
  written back only there. Mixing kernel, grid 8 × 4: every position writes its own block.
-/
import proofs.«110314_j50130858279651_1_alg».proof.Proof.KiBody
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions

-- the core's buffer contents when a kernel is entered
variable (V : (c : Dev nD) → (b : Ref sig .tc) → Buf (Elt F) ((c : Thread nD τ).loc b))

/-! # The score kernel -/

/-- Window `w`'s block at position `t`, read off its array as the kernel finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every position, fetched there or not. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem found0_3 {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- The tile at position `t` is the first of its batch exactly when `t` is a multiple of 8, -/
theorem first_iff : ∀ t : Fin cfg0.N, isFirst (grid0.coords t) ↔ t.val % 8 = 0 :=
  (by decide +kernel : ∀ t : Fin grid0.N, isFirst (grid0.coords t) ↔ t.val % 8 = 0)
/-- and the last exactly when `t` is 7 modulo 8. -/
theorem last_iff : ∀ t : Fin cfg0.N, isLast (grid0.coords t) ↔ t.val % 8 = 7 :=
  (by decide +kernel : ∀ t : Fin grid0.N, isLast (grid0.coords t) ↔ t.val % 8 = 7)

/-- The inputs are never idle; the output is idle, and not written back, away from the last tiles. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem idle0_4 : ∀ t : Fin cfg0.N, ¬isLast (grid0.coords t) → cfg0.idle 4 (grid0.coords t) = true := by decide +kernel
theorem noFlush0_4 : ∀ t : Fin cfg0.N, ¬isLast (grid0.coords t) → (cfg0.win 4).flush t = false := by decide +kernel
theorem live0_4 : ∀ t : Fin cfg0.N, isLast (grid0.coords t) → cfg0.idle 4 (grid0.coords t) = false := by decide +kernel

/-- The accumulator's buffer. -/
abbrev scM0 : Memref sig .tc .vmem S1024x1024 .f32 := Memref.whole cc0_scratch0

/-- THE ACCUMULATOR after position `n`: the tile's product added to zero at the first tile of a batch, else to what
    the position before left. -/
def accAt (c : Dev nD) : (n : ℕ) → n < cfg0.N → Vec F S1024x1024 .f32
  | 0, h => k0_pay2 (blk0 V c 0 ⟨0, h⟩) (blk0 V c 2 ⟨0, h⟩) (blk0 V c 1 ⟨0, h⟩) (blk0 V c 3 ⟨0, h⟩) (k0_pay1 (F := F))
  | n + 1, h => k0_pay2 (blk0 V c 0 ⟨n + 1, h⟩) (blk0 V c 2 ⟨n + 1, h⟩) (blk0 V c 1 ⟨n + 1, h⟩) (blk0 V c 3 ⟨n + 1, h⟩)
      (if (n + 1) % 8 = 0 then k0_pay1 (F := F) else accAt c n (Nat.lt_of_succ_lt h))

theorem accAt_first (c : Dev nD) (t : Fin cfg0.N) (h : t.val % 8 = 0) :
    accAt V c t.val t.isLt = k0_pay2 (blk0 V c 0 t) (blk0 V c 2 t) (blk0 V c 1 t) (blk0 V c 3 t) (k0_pay1 (F := F)) := by
  obtain ⟨n, hn⟩ := t
  cases n with
  | zero => rfl
  | succ n => show k0_pay2 _ _ _ _ (if (n + 1) % 8 = 0 then _ else _) = _; rw [if_pos h]

theorem accAt_next (c : Dev nD) (t : Fin cfg0.N) (h : ¬t.val % 8 = 0) :
    accAt V c t.val t.isLt = k0_pay2 (blk0 V c 0 t) (blk0 V c 2 t) (blk0 V c 1 t) (blk0 V c 3 t)
      (accAt V c (t.val - 1) (Nat.lt_of_le_of_lt (Nat.sub_le _ _) t.isLt)) := by
  obtain ⟨n, hn⟩ := t
  cases n with
  | zero => exact absurd (Nat.zero_mod _) h
  | succ n => show k0_pay2 _ _ _ _ (if (n + 1) % 8 = 0 then _ else _) = _; rw [if_neg h]; rfl

/-- The scoped buffers that are neither the score kernel's staging buffers nor its accumulator: the mixing kernel's
    staging buffers, each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The invariant the pipeline hands a kernel that names no scratch contents, with the accumulator split off. -/
theorem PhiA0_eq (c : Dev nD) :
    (Pipeline.ΦA spec0 c : sProp 𝕄)
      = iprop(((∃ d, owns (c : Thread nD τ) scM0 fullShare d) ∗ others0 (F := F) c) ∗ (∃ r, prngReg c r)) := by
  unfold Pipeline.ΦA others0; rw [scopedRest0_eq]; simp only [scM0, owns_whole]; try rfl

/-- The invariant before position `n`: before the first, the accumulator at anything; afterwards at what the
    position before left. -/
def PhiS (c : Dev nD) : (n : ℕ) → n ≤ cfg0.N → sProp 𝕄
  | 0, _ => Pipeline.ΦA spec0 c
  | n + 1, hn => iprop((owns (c : Thread nD τ) scM0 fullShare (accAt V c n hn) ∗ others0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM0 fullShare (accAt V c n hn) ∗ others0 (F := F) c) ∗ (∃ r, prngReg c r)) := rfl
theorem PhiS_pos (c : Dev nD) (n : ℕ) (h : n ≤ cfg0.N) (hz : n ≠ 0) :
    PhiS V c n h = iprop((owns (c : Thread nD τ) scM0 fullShare (accAt V c (n - 1) (by omega)) ∗ others0 (F := F) c) ∗ (∃ r, prngReg c r)) := by
  cases n with
  | zero => exact absurd rfl hz
  | succ n => rfl

/-- The score kernel's proof data on core `c`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => k0_pay3 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = k0_pay3 (accAt V c t.val t.isLt) := by dsimp only [dat0]

theorem before0_0 (c : Dev nD) (t : Fin cfg0.N) (d) : (dat0 V c).before 0 t d = blk0 V c 0 t :=
  found0_0 V (dat0 V c) (A_eq0 V c 0) (after0_0 V c) t d
theorem before0_1 (c : Dev nD) (t : Fin cfg0.N) (d) : (dat0 V c).before 1 t d = blk0 V c 1 t :=
  found0_1 V (dat0 V c) (A_eq0 V c 1) (after0_1 V c) t d
theorem before0_2 (c : Dev nD) (t : Fin cfg0.N) (d) : (dat0 V c).before 2 t d = blk0 V c 2 t :=
  found0_2 V (dat0 V c) (A_eq0 V c 2) (after0_2 V c) t d
theorem before0_3 (c : Dev nD) (t : Fin cfg0.N) (d) : (dat0 V c).before 3 t d = blk0 V c 3 t :=
  found0_3 V (dat0 V c) (A_eq0 V c 3) (after0_3 V c) t d

theorem Phi0_castSucc (c : Dev nD) (t : Fin cfg0.N) :
    (dat0 V c).Φ t.castSucc = PhiS V c t.val (Nat.le_of_lt t.isLt) := by
  dsimp only [dat0]; simp only [Fin.coe_castSucc]

/-- What the kernel is called with at position `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (st0_0 t) fullShare (blk0 V c 0 t) := by
  unfold Dat.leavesExact; rw [live0_0 t, after0_0]
theorem leaves0_1 (c : Dev nD) (t : Fin cfg0.N) : (dat0 V c).leavesExact 1 t = owns (c : Thread nD τ) (st0_1 t) fullShare (blk0 V c 1 t) := by
  unfold Dat.leavesExact; rw [live0_1 t, after0_1]
theorem leaves0_2 (c : Dev nD) (t : Fin cfg0.N) : (dat0 V c).leavesExact 2 t = owns (c : Thread nD τ) (st0_2 t) fullShare (blk0 V c 2 t) := by
  unfold Dat.leavesExact; rw [live0_2 t, after0_2]
theorem leaves0_3 (c : Dev nD) (t : Fin cfg0.N) : (dat0 V c).leavesExact 3 t = owns (c : Thread nD τ) (st0_3 t) fullShare (blk0 V c 3 t) := by
  unfold Dat.leavesExact; rw [live0_3 t, after0_3]
theorem leaves0_4_last (c : Dev nD) (t : Fin cfg0.N) (hl : isLast (grid0.coords t)) :
    (dat0 V c).leavesExact 4 t = owns (c : Thread nD τ) (st0_4 t) fullShare (k0_pay3 (accAt V c t.val t.isLt)) := by
  unfold Dat.leavesExact; rw [live0_4 t hl, after0_4]

set_option maxHeartbeats 4000000 in
/-- The score kernel at any position: by the tile's place in its batch. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3]
  have hN : t.val < 64 := lt_of_lt_of_eq t.isLt (show cfg0.N = 64 from N_0)
  by_cases h0 : t.val % 8 = 0
  · have hf : isFirst (grid0.coords t) := (first_iff t).mpr h0
    have hl : ¬isLast (grid0.coords t) := fun h => by have := (last_iff t).mp h; omega
    rw [Dat.leavesExact_idle (dat0 V c) 4 t (idle0_4 t hl) (noFlush0_4 t hl), accAt_first V c t h0]
    by_cases hz : t.val = 0
    · rw [Phi0_castSucc V c t, PhiS_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply (body0_first c Set.univ (grid0.coords t) hf hl _ _ _ _ _ _ _ _ _ _ _ _ (blk0 V c 0 t) (blk0 V c 1 t) (blk0 V c 2 t) (blk0 V c 3 t) ((dat0 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [Phi0_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (body0_first c Set.univ (grid0.coords t) hf hl _ _ _ _ _ _ _ _ _ _ _ _ (blk0 V c 0 t) (blk0 V c 1 t) (blk0 V c 2 t) (blk0 V c 3 t) ((dat0 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hf : ¬isFirst (grid0.coords t) := fun h => h0 ((first_iff t).mp h)
    have hz : t.val ≠ 0 := fun e => h0 (by rw [e])
    rw [Phi0_castSucc V c t, PhiS_pos V c _ _ hz, accAt_next V c t h0]
    by_cases h1 : t.val % 8 = 7
    · have hl : isLast (grid0.coords t) := (last_iff t).mpr h1
      rw [leaves0_4_last V c t hl, accAt_next V c t h0]
      iintro ⟨⟨⟨HS, HR⟩, Hg⟩, Ho, ⟨%d0, H0⟩, ⟨%d1, H1⟩, ⟨%d2, H2⟩, ⟨%d3, H3⟩, ⟨%d4, H4⟩⟩
      iapply (body0_last c Set.univ (grid0.coords t) hf hl _ _ _ _ _ _ _ _ _ _ _ _ (blk0 V c 0 t) (blk0 V c 1 t) (blk0 V c 2 t) (blk0 V c 3 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · have hl : ¬isLast (grid0.coords t) := fun h => h1 ((last_iff t).mp h)
      rw [Dat.leavesExact_idle (dat0 V c) 4 t (idle0_4 t hl) (noFlush0_4 t hl)]
      iintro ⟨⟨⟨HS, HR⟩, Hg⟩, Ho, ⟨%d0, H0⟩, ⟨%d1, H1⟩, ⟨%d2, H2⟩, ⟨%d3, H3⟩, ⟨%d4, H4⟩⟩
      iapply (body0_mid c Set.univ (grid0.coords t) hf hl _ _ _ _ _ _ _ _ _ _ _ _ (blk0 V c 0 t) (blk0 V c 1 t) (blk0 V c 2 t) (blk0 V c 3 t) ((dat0 V c).before 4 t d4) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The score kernel's obligation to the pipeline, at every position. -/
theorem body_obligation0 (c : Dev nD) : BodyObligation (dat0 (F := F) V c) (defs₀ (F := F)) Variants.none () Set.univ := fun t => by
  rw [bigSep_W0, bigSep_W0]
  exact sound_body0 V c t

/-- Entering: the pipeline's invariant is the one before the first position. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- Leaving: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS, HR⟩, Hg⟩
  isplitl [HS HR]
  · isplitl [HS]; · iexists _; iexact HS
    iexact HR
  iexact Hg

/-! # The mixing kernel -/

/-- Window `w`'s block at position `t`, read off its array as the kernel finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The mixing kernel's proof data on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => k1_pay1 (blk1 V c 0 t) (blk1 V c 1 t) (blk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = k1_pay1 (blk1 V c 0 t) (blk1 V c 1 t) (blk1 V c 2 t) := by dsimp only [dat1]

theorem before1_0 (c : Dev nD) (t : Fin cfg1.N) (d) : (dat1 V c).before 0 t d = blk1 V c 0 t :=
  found1_0 V (dat1 V c) (A_eq1 V c 0) (after1_0 V c) t d
theorem before1_1 (c : Dev nD) (t : Fin cfg1.N) (d) : (dat1 V c).before 1 t d = blk1 V c 1 t :=
  found1_1 V (dat1 V c) (A_eq1 V c 1) (after1_1 V c) t d
theorem before1_2 (c : Dev nD) (t : Fin cfg1.N) (d) : (dat1 V c).before 2 t d = blk1 V c 2 t :=
  found1_2 V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (body1_run c Set.univ (grid1.coords t) _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KiRun.lean ====
/-
  The whole program's run: five casts on the host, the score kernel, the mixing kernel.

  The buffers' contents are followed from the launch memory through the three items: after the casts; after the score
  kernel, whose output array holds what its write-backs left and whose other buffers are as entered; after the mixing
  kernel likewise. Each kernel is entered from, and left at, "every unscoped buffer whole at the boundary's contents,
  the generator register at some state, nothing owed"; the score kernel's accumulator is named only inside its own
  invariant. At the end every unscoped buffer is read at the last boundary's contents: the arguments as launched,
  the result array at what the mixing kernel's write-backs left.
-/
import proofs.«110314_j50130858279651_1_alg».proof.Proof.KiDat

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => m (c, b)
/-- After the casts. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the score kernel. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exit0_arr (c : Dev nD) (w : Fin cfg0.W) : (dat0 (V1 m) c).arrAt w cfg0.N = V2 m c (Pipeline.arrRef spec0 w) :=
  (W2_arr m c w).symm
theorem exit0_rest (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the mixing kernel. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem exit1_arr (c : Dev nD) (w : Fin cfg1.W) : (dat1 (V2 m) c).arrAt w cfg1.N = V3 m c (Pipeline.arrRef spec1 w) :=
  (W3_arr m c w).symm
theorem exit1_rest (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The casts write only their own results. -/
theorem W1_of_not_written (c : Dev nD) (b : Ref sig .tc)
    (hb : b ∉ ([main_call0_v0, main_call0_v1, main_call0_v2, main_call0_v3, main_call0_v4] : List (Ref sig .tc))) :
    W1 m c (Proc.devRef .tc b) = W0 m c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, Finset.mem_singleton]
    simp only [List.mem_cons, List.mem_nil_iff, or_false, not_or] at hb
    obtain ⟨h0, h1, h2, h3, h4⟩ := hb
    exact ⟨StableHlo.devRef_ne_of_ne h0, StableHlo.devRef_ne_of_ne h1, StableHlo.devRef_ne_of_ne h2, StableHlo.devRef_ne_of_ne h3, StableHlo.devRef_ne_of_ne h4⟩))

/-- An argument array is written by no cast and is no kernel's array: it ends as launched. -/
theorem W3_arg (c : Dev nD) (b : Ref sig .tc) (h1 : ∀ w, Pipeline.arrRef spec1 w ≠ b) (h0 : ∀ w, Pipeline.arrRef spec0 w ≠ b)
    (hb : b ∉ ([main_call0_v0, main_call0_v1, main_call0_v2, main_call0_v3, main_call0_v4] : List (Ref sig .tc))) :
    W3 m c (Proc.devRef .tc b) = m ((c : Thread nD τ).loc b) :=
  (W3_of_ne m c b h1).trans ((W2_of_ne m c b h0).trans ((W1_of_not_written m c b hb).trans rfl))

theorem W3_main_arg0 (c : Dev nD) : W3 m c (Proc.devRef .tc main_arg0) = m ((c : Thread nD τ).loc main_arg0) :=
  W3_arg m c main_arg0 (by decide) (by decide) (by decide)
theorem W3_main_arg1 (c : Dev nD) : W3 m c (Proc.devRef .tc main_arg1) = m ((c : Thread nD τ).loc main_arg1) :=
  W3_arg m c main_arg1 (by decide) (by decide) (by decide)
theorem W3_main_arg2 (c : Dev nD) : W3 m c (Proc.devRef .tc main_arg2) = m ((c : Thread nD τ).loc main_arg2) :=
  W3_arg m c main_arg2 (by decide) (by decide) (by decide)
theorem W3_main_arg3 (c : Dev nD) : W3 m c (Proc.devRef .tc main_arg3) = m ((c : Thread nD τ).loc main_arg3) :=
  W3_arg m c main_arg3 (by decide) (by decide) (by decide)
theorem W3_main_arg4 (c : Dev nD) : W3 m c (Proc.devRef .tc main_arg4) = m ((c : Thread nD τ).loc main_arg4) :=
  W3_arg m c main_arg4 (by decide) (by decide) (by decide)
/-- The result array ends at what the mixing kernel's write-backs left. -/
theorem W3_main_v0 (c : Dev nD) : W3 m c (Proc.devRef .tc main_v0) = (dat1 (V2 m) c).arrAt 3 cfg1.N :=
  W3_arr m c 3

/-! ## The proof data family and the thread state -/

abbrev adm : (p : Fin 2) → (pcfgs (F := F) p).Adm := fun p => (cfgs p).toPCfg_adm
/-- Each kernel's proof data at its own entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

/-- The casts as a segment of the run. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state but for the owes. -/
abbrev Tₙ (c : Dev nD) : sProp 𝕄 := iprop(StableHlo.held (c : Thread nD τ) (Pipeline.ucRefs τ sig) (W3 m c) ∗ ∃ r, prngReg c r)

/-! ## The kernels as segments -/

set_option backward.isDefEq.respectTransparency.types false in
/-- The score kernel: entered from the contents after the casts, left at `W2`. Its invariant is entered with the
    accumulator at anything and left with its contents forgotten. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    have hA : (Pipeline.ΦA spec0 c : sProp 𝕄)
        ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    rw [Pipeline.ownSems0_none]
    exact (hout0 (V1 m) c).trans hA
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The mixing kernel: entered from `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- Every weakly fair execution from memory `m` with zero counters terminates, nothing faulting, and every unscoped
    buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

/-- The run with the result array named. -/
theorem run_named : θ_run defs (onTc (τ := τ) (main (F := F))) ⟨m, fun _ => 0, ρ⟩ (fun r => ∀ c : Dev nD,
      r.2.mem ((c.tc : Thread nD τ).loc main_v0) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v0 (by decide))).trans (W3_main_v0 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.KernelIdeal.Hand

end
-- ==== Proof.LibBlockSum.lean ====
/-
  A sum over n · b rows, taken block by block.

  Let `N = n · b` and let `f` assign to each of the rows `0, …, N − 1` an element of a commutative additive monoid
  (the extended reals are one; nothing finite is asked of the values).  Cut the rows into `n` consecutive blocks of
  `b`: block `t` holds the rows `b·t, …, b·t + b − 1`.  Then

    • the sum over all rows is the sum over the blocks of each block's sum;
    • the partial sums `P m = Σ_{k < m} f k` satisfy `P 0 = 0`, `P (b·(t+1)) = P (b·t) + (block t's sum)` and
      `P (b·n) = Σ_k f k`;
    • so a running total that starts at zero and adds one block's sum at each of the steps `t = 0, …, n − 1` holds
      `P (b·t)` before step `t` and the whole sum after the last step.

  Everything is stated over `Fin N` with the equation `n · b = N` as a hypothesis, so that the rows may be counted by a
  literal (`N = 50000` with `n = 25`, `b = 2000`) without a change of index type.
-/
import Mathlib.Algebra.BigOperators.Fin
import Mathlib.Algebra.BigOperators.Group.Finset.Basic
import Mathlib.Data.Fintype.Basic
import Mathlib.Data.EReal.Basic
import Mathlib.Tactic.Ring
import Mathlib.Tactic.NormNum

namespace Cert.LibBlockSum

open scoped BigOperators

variable {M : Type*} [AddCommMonoid M] {N : ℕ}

/-! ## Partial sums over the rows below a bound -/

/-- The sum of `f` over the rows whose number is below `m`. -/
def partialSum (f : Fin N → M) (m : ℕ) : M :=
  ∑ k ∈ Finset.univ.filter (fun k : Fin N => k.val < m), f k

/-- No row lies below `0`: the empty partial sum is zero. -/
theorem partialSum_zero (f : Fin N → M) : partialSum f 0 = 0 := by
  unfold partialSum
  rw [Finset.filter_false_of_mem (fun k _ => Nat.not_lt_zero k.val), Finset.sum_empty]

/-- Raising the bound from `m` to `m + 1` adds row `m`. -/
theorem partialSum_succ (f : Fin N → M) {m : ℕ} (h : m < N) :
    partialSum f (m + 1) = partialSum f m + f ⟨m, h⟩ := by
  unfold partialSum
  have hins : Finset.univ.filter (fun k : Fin N => k.val < m + 1)
      = insert (⟨m, h⟩ : Fin N) (Finset.univ.filter (fun k : Fin N => k.val < m)) := by
    ext k
    simp only [Finset.mem_filter, Finset.mem_univ, true_and, Finset.mem_insert, Fin.ext_iff]
    omega
  have hnot : (⟨m, h⟩ : Fin N) ∉ Finset.univ.filter (fun k : Fin N => k.val < m) := by
    simp only [Finset.mem_filter, Finset.mem_univ, true_and]
    omega
  rw [hins, Finset.sum_insert hnot, add_comm]

/-- Raising the bound from `m` to `m + b` adds the `b` rows `m, …, m + b − 1`. -/
theorem partialSum_add (f : Fin N → M) (m b : ℕ) (h : m + b ≤ N) :
    partialSum f (m + b) = partialSum f m + ∑ r : Fin b, f ⟨m + r.val, lt_of_lt_of_le (by omega) h⟩ := by
  induction b with
  | zero => simp
  | succ b ih =>
    have hb : m + b ≤ N := by omega
    have hlt : m + b < N := by omega
    show partialSum f (m + b + 1) = _
    rw [partialSum_succ f hlt, ih hb, Fin.sum_univ_castSucc, add_assoc]
    rfl

/-- Once the bound has passed the last row, the partial sum is the whole sum. -/
theorem partialSum_of_le (f : Fin N → M) {m : ℕ} (h : N ≤ m) : partialSum f m = ∑ k, f k := by
  unfold partialSum
  rw [Finset.filter_true_of_mem (fun k _ => lt_of_lt_of_le k.isLt h)]

/-- The partial sum below `N` is the whole sum. -/
theorem partialSum_self (f : Fin N → M) : partialSum f N = ∑ k, f k := partialSum_of_le f le_rfl

/-! ## Blocks -/

variable {n b : ℕ}

/-- Row `r` of block `t` is a row: `b·t + r < b·(t+1) ≤ b·n = N`. -/
theorem block_lt (hN : n * b = N) {t r : ℕ} (ht : t < n) (hr : r < b) : b * t + r < N := by
  calc b * t + r < b * t + b := by omega
    _ = b * (t + 1) := by ring
    _ ≤ b * n := Nat.mul_le_mul_left b ht
    _ = N := by rw [Nat.mul_comm, hN]

/-- The first `t` blocks are rows: `b·t ≤ N` for `t ≤ n`. -/
theorem blocks_le (hN : n * b = N) {t : ℕ} (ht : t ≤ n) : b * t ≤ N := by
  calc b * t ≤ b * n := Nat.mul_le_mul_left b ht
    _ = N := by rw [Nat.mul_comm, hN]

/-- The sum of `f` over block `t`: the rows `b·t, …, b·t + b − 1`. -/
def blockSum (hN : n * b = N) (f : Fin N → M) (t : Fin n) : M :=
  ∑ r : Fin b, f ⟨b * t.val + r.val, block_lt hN t.isLt r.isLt⟩

/-- `blockSum` written out. -/
theorem blockSum_eq (hN : n * b = N) (f : Fin N → M) (t : Fin n) :
    blockSum hN f t = ∑ r : Fin b, f ⟨b * t.val + r.val, block_lt hN t.isLt r.isLt⟩ := rfl

/-- Passing from the first `t` blocks to the first `t + 1` adds block `t`'s sum. -/
theorem partialSum_block_succ (hN : n * b = N) (f : Fin N → M) (t : Fin n) :
    partialSum f (b * (t.val + 1)) = partialSum f (b * t.val) + blockSum hN f t := by
  have h : b * t.val + b ≤ N := by
    have := blocks_le hN (t := t.val + 1) t.isLt
    rwa [Nat.mul_succ] at this
  rw [show b * (t.val + 1) = b * t.val + b from Nat.mul_succ b t.val, partialSum_add f (b * t.val) b h]
  rfl

/-- The partial sum below the first `t` blocks is the sum of those blocks' sums. -/
theorem partialSum_blocks (hN : n * b = N) (f : Fin N → M) {t : ℕ} (ht : t ≤ n) :
    partialSum f (b * t) = ∑ s : Fin t, blockSum hN f ⟨s.val, lt_of_lt_of_le s.isLt ht⟩ := by
  induction t with
  | zero => rw [Nat.mul_zero, partialSum_zero, Fin.sum_univ_zero]
  | succ t ih =>
    have htn : t < n := ht
    rw [partialSum_block_succ hN f ⟨t, htn⟩, ih (Nat.le_of_lt htn), Fin.sum_univ_castSucc]
    rfl

/-- **The sum over all rows is the sum over the blocks of each block's sum.** -/
theorem sum_blocks (hN : n * b = N) (f : Fin N → M) : ∑ k, f k = ∑ t : Fin n, blockSum hN f t := by
  rw [← partialSum_of_le f (le_of_eq (by rw [Nat.mul_comm, hN] : N = b * n)), partialSum_blocks hN f le_rfl]

/-- The same with each block's sum written out:
    `Σ_k f k = Σ_{t < n} Σ_{r < b} f (b·t + r)`. -/
theorem sum_blocks' (hN : n * b = N) (f : Fin N → M) :
    ∑ k, f k = ∑ t : Fin n, ∑ r : Fin b, f ⟨b * t.val + r.val, block_lt hN t.isLt r.isLt⟩ :=
  sum_blocks hN f

/-! ## The running total, step by step -/

/-- The running total after `t` steps: zero at the start, and step `t` adds block `t`'s sum (a step past the last block
    adds nothing). -/
def blockAcc (hN : n * b = N) (f : Fin N → M) : ℕ → M
  | 0 => 0
  | t + 1 => blockAcc hN f t + (if h : t < n then blockSum hN f ⟨t, h⟩ else 0)

/-- Before the first step the running total is zero. -/
@[simp] theorem blockAcc_zero (hN : n * b = N) (f : Fin N → M) : blockAcc hN f 0 = 0 := rfl

/-- Step `t` adds block `t`'s sum. -/
theorem blockAcc_succ (hN : n * b = N) (f : Fin N → M) {t : ℕ} (h : t < n) :
    blockAcc hN f (t + 1) = blockAcc hN f t + blockSum hN f ⟨t, h⟩ := by
  show blockAcc hN f t + (if h : t < n then blockSum hN f ⟨t, h⟩ else 0) = _
  rw [dif_pos h]

/-- Step `t`, with the block's sum written out. -/
theorem blockAcc_succ' (hN : n * b = N) (f : Fin N → M) {t : ℕ} (h : t < n) :
    blockAcc hN f (t + 1)
      = blockAcc hN f t + ∑ r : Fin b, f ⟨b * t + r.val, block_lt hN h r.isLt⟩ :=
  blockAcc_succ hN f h

/-- After `t ≤ n` steps the running total is the partial sum over the rows below `b·t`. -/
theorem blockAcc_eq_partialSum (hN : n * b = N) (f : Fin N → M) {t : ℕ} (ht : t ≤ n) :
    blockAcc hN f t = partialSum f (b * t) := by
  induction t with
  | zero => rw [Nat.mul_zero, partialSum_zero, blockAcc_zero]
  | succ t ih =>
    have htn : t < n := ht
    rw [blockAcc_succ hN f htn, ih (Nat.le_of_lt htn), partialSum_block_succ hN f ⟨t, htn⟩]

/-- After `t ≤ n` steps the running total is the sum over the rows `k` with `k < b·t`, as a filtered sum. -/
theorem blockAcc_eq_filter (hN : n * b = N) (f : Fin N → M) {t : ℕ} (ht : t ≤ n) :
    blockAcc hN f t = ∑ k ∈ Finset.univ.filter (fun k : Fin N => k.val < b * t), f k :=
  blockAcc_eq_partialSum hN f ht

/-- **After the last step the running total is the sum over all rows.** -/
theorem blockAcc_last (hN : n * b = N) (f : Fin N → M) : blockAcc hN f n = ∑ k, f k := by
  rw [blockAcc_eq_partialSum hN f le_rfl]
  exact partialSum_of_le f (le_of_eq (by rw [Nat.mul_comm, hN]))

/-! ## 50000 rows in 25 blocks of 2000 -/

/-- `25 · 2000 = 50000`. -/
theorem rows_50000 : 25 * 2000 = 50000 := by norm_num

/-- Row `r` of block `t` among 50000 rows in 25 blocks of 2000. -/
theorem block_lt_50000 {t r : ℕ} (ht : t < 25) (hr : r < 2000) : 2000 * t + r < 50000 := by omega

/-- The sum over 50000 rows is the sum over the 25 blocks of the sums over each block's 2000 rows. -/
theorem sum_blocks_50000 (f : Fin 50000 → M) :
    ∑ k, f k = ∑ t : Fin 25, ∑ r : Fin 2000, f ⟨2000 * t.val + r.val, block_lt_50000 t.isLt r.isLt⟩ :=
  sum_blocks' rows_50000 f

/-- The running total over 50000 rows in 25 blocks of 2000. -/
def acc50000 (f : Fin 50000 → M) (t : ℕ) : M := blockAcc rows_50000 f t

/-- It starts at zero. -/
@[simp] theorem acc50000_zero (f : Fin 50000 → M) : acc50000 f 0 = 0 := rfl

/-- Step `t < 25` adds the sum over the rows `2000·t, …, 2000·t + 1999`. -/
theorem acc50000_succ (f : Fin 50000 → M) {t : ℕ} (h : t < 25) :
    acc50000 f (t + 1) = acc50000 f t + ∑ r : Fin 2000, f ⟨2000 * t + r.val, block_lt_50000 h r.isLt⟩ :=
  blockAcc_succ' rows_50000 f h

/-- After `t ≤ 25` steps it is the sum over the rows below `2000·t`. -/
theorem acc50000_eq_filter (f : Fin 50000 → M) {t : ℕ} (ht : t ≤ 25) :
    acc50000 f t = ∑ k ∈ Finset.univ.filter (fun k : Fin 50000 => k.val < 2000 * t), f k :=
  blockAcc_eq_filter rows_50000 f ht

/-- After the 25th step it is the sum over all 50000 rows. -/
theorem acc50000_last (f : Fin 50000 → M) : acc50000 f 25 = ∑ k, f k :=
  blockAcc_last rows_50000 f

/-- The extended reals are such a monoid: the statements above hold of sums of extended reals as they stand. -/
example (f : Fin 50000 → EReal) : acc50000 f 25 = ∑ k, f k := acc50000_last f

end Cert.LibBlockSum
-- ==== Proof.Spec.lean ====
/-
  Attention over the feature axis.

  Two batches of sequences x₁, x₂ : [8, 4096, 1024] are projected by square matrices,
      q[b,s,d] = Σ_j x₁[b,s,j] · Wq[j,d],   k[b,s,e] = Σ_j x₂[b,s,j] · Wk[j,e],   v[b,s,d] = Σ_j x₂[b,s,j] · Wv[j,d].
  The score matrix contracts the SEQUENCE axis, so it lives on features × features:
      A[b,d,e] = Σ_s q[b,s,d] · k[b,s,e].
  Each of its rows, scaled by 1/√1024 = 2⁻⁵, goes through a softmax along e,
      w[b,d,e] = exp(z_e − M) / Σ_e' exp(z_e' − M),   z_e = A[b,d,e] · 2⁻⁵,   M = max(−∞, max_e z_e),
  and the result mixes the feature axis of the values:
      out[b,s,e] = Σ_d v[b,s,d] · w[b,d,e].
  All of it is read on the extended reals, where sums may be regrouped freely (addition is commutative and
  associative there) and a product with the dyadic 2⁻⁵ is the quotient by √1024 = 32.
-/
import Idealize.ShloMosaic.PureOps.Ideal
import Idealize.ShloMosaic.Lib.ValueIdx
import proofs.«110314_j50130858279651_1_alg».proof.Proof.LibBlockSum

noncomputable section

namespace Cert.Attn

open Idealize.ShloMosaic Idealize.ShloMosaic.ValueIdx
open scoped BigOperators

/-- A batch of sequences, [8, 4096, 1024], and a square matrix, [1024, 1024], with extended-real entries. -/
abbrev Seqs : Type := (⟨3, ![8, 4096, 1024]⟩ : Shape).Idx → EReal
abbrev Mat : Type := (⟨2, ![1024, 1024]⟩ : Shape).Idx → EReal
/-- A batch of feature × feature matrices, [8, 1024, 1024]. -/
abbrev Mats : Type := (⟨3, ![8, 1024, 1024]⟩ : Shape).Idx → EReal

/-- The value of the f32 pattern of −∞ (both programs start their row maximum from it). -/
def ninf : EReal := Ideal.ofBits .f32 0xFF800000#32
/-- The value of the f32 pattern of 2⁻⁵ = 0.03125. -/
def scale : EReal := Ideal.ofBits .f32 0x3D000000#32

/-- Row (b, s) of `x` against column `d` of `w`. -/
def proj (x : Seqs) (w : Mat) (b : Fin 8) (s : Fin 4096) (d : Fin 1024) : EReal :=
  ∑ j : Fin 1024, x (ix3 b s j) * w (ix2 j d)

/-- One sequence position's contribution to the score A[b,d,e]. -/
def term (x1 x2 : Seqs) (wq wk : Mat) (b : Fin 8) (d e : Fin 1024) (s : Fin 4096) : EReal :=
  proj x1 wq b s d * proj x2 wk b s e

/-- The score matrix: queries against keys, contracted over the sequence. -/
def scores (x1 x2 : Seqs) (wq wk : Mat) (b : Fin 8) (d e : Fin 1024) : EReal :=
  ∑ s : Fin 4096, term x1 x2 wq wk b d e s

/-- The maximum of a row, taken from −∞ and once more against −∞. -/
def rowMax (z : Fin 1024 → EReal) : EReal := max ninf (Finset.univ.fold max ninf z)

/-- The softmax of a row at one entry. -/
def softmaxRow (z : Fin 1024 → EReal) (e : Fin 1024) : EReal :=
  Ideal.div (Ideal.exp (z e - rowMax z)) (∑ e' : Fin 1024, Ideal.exp (z e' - rowMax z))

/-- The softmax of a row whose entries are `a e · 2⁻⁵`. -/
def softmaxScaled (a : Fin 1024 → EReal) (e : Fin 1024) : EReal := softmaxRow (fun e' => a e' * scale) e

/-- The attention weights. -/
def weights (x1 x2 : Seqs) (wq wk : Mat) (b : Fin 8) (d e : Fin 1024) : EReal :=
  softmaxScaled (fun e' => scores x1 x2 wq wk b d e') e

/-- The weights as an array [8, 1024, 1024]. -/
def weightsArr (x1 x2 : Seqs) (wq wk : Mat) : Mats := fun i => weights x1 x2 wq wk (i 0) (i 1) (i 2)

/-- Values against a batch of feature × feature matrices. -/
def mix (x2 : Seqs) (wv : Mat) (w : Mats) (b : Fin 8) (s : Fin 4096) (e : Fin 1024) : EReal :=
  ∑ d : Fin 1024, proj x2 wv b s d * w (ix3 b d e)

/-- The values mixed by an array of weights, as an array [8, 4096, 1024]. -/
def mixArr (x2 : Seqs) (wv : Mat) (w : Mats) : Seqs := fun i => mix x2 wv w (i 0) (i 1) (i 2)

/-- The whole computation. -/
def G (x1 x2 : Seqs) (wq wk wv : Mat) : Seqs := mixArr x2 wv (weightsArr x1 x2 wq wk)

/-! ## The sequence axis in 8 tiles of 512 -/

theorem tiles : 8 * 512 = 4096 := by norm_num

/-- The running total of the score after `n` tiles of 512 sequence positions. -/
def scoreAcc (x1 x2 : Seqs) (wq wk : Mat) (b : Fin 8) (d e : Fin 1024) (n : ℕ) : EReal :=
  Cert.LibBlockSum.blockAcc tiles (term x1 x2 wq wk b d e) n

@[simp] theorem scoreAcc_zero (x1 x2 : Seqs) (wq wk : Mat) (b : Fin 8) (d e : Fin 1024) :
    scoreAcc x1 x2 wq wk b d e 0 = 0 := rfl

/-- Tile `n` adds its 512 positions' terms. -/
theorem scoreAcc_succ (x1 x2 : Seqs) (wq wk : Mat) (b : Fin 8) (d e : Fin 1024) {n : ℕ} (h : n < 8) :
    scoreAcc x1 x2 wq wk b d e (n + 1)
      = scoreAcc x1 x2 wq wk b d e n
        + ∑ r : Fin 512, term x1 x2 wq wk b d e ⟨512 * n + r.val, Cert.LibBlockSum.block_lt tiles h r.isLt⟩ :=
  Cert.LibBlockSum.blockAcc_succ' tiles _ h

/-- After the eighth tile the running total is the score. -/
theorem scoreAcc_last (x1 x2 : Seqs) (wq wk : Mat) (b : Fin 8) (d e : Fin 1024) :
    scoreAcc x1 x2 wq wk b d e 8 = scores x1 x2 wq wk b d e :=
  Cert.LibBlockSum.blockAcc_last tiles _

/-! ## The scale -/

theorem ofBits_one : Ideal.ofBits .f32 0x3F800000#32 = ((1 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_scale : Ideal.ofBits .f32 0x3D000000#32 = ((1 / 32 : ℝ) : EReal) := by
  simp [Ideal.ofBits, Ideal.ieee, -EReal.coe_mul]; norm_num

theorem sqrt_1024 : Real.sqrt 1024 = 32 := by
  rw [show (1024 : ℝ) = 32 ^ 2 by norm_num]; exact Real.sqrt_sq (by norm_num)

/-- 1 / √1024 is 2⁻⁵: the reference's quotient is the kernel's literal. -/
theorem one_div_sqrt :
    Ideal.div (Ideal.ofBits .f32 0x3F800000#32) (Ideal.sqrt (Ideal.ofBits .f32 0x44800000#32)) = scale := by
  unfold scale
  rw [ofBits_one, ofBits_1024, ofBits_scale, Ideal.sqrt_coe, if_neg (by norm_num), sqrt_1024,
    Ideal.div_coe (by norm_num : (32 : ℝ) ≠ 0), ← EReal.coe_mul, one_mul]

end Cert.Attn

end
-- ==== Proof.KiPay.lean ====
/-
  The kernels' arithmetic read at one entry, on the extended reals.

  One tile of the score kernel adds to the accumulator's entry (d, e) the sum, over the tile's 512 positions r, of
  the projected query's entry (r, d) times the projected key's entry (r, e); the projections are plain sums over the
  1024 input features. The softmax store reads row d of the scaled accumulator. One tile of the mixing kernel holds,
  at (r, e), the sum over d of the projected value's entry (r, d) times the weight matrix's entry (d, e).
  A change of float format is the identity here, and a matrix product into a zero accumulator is the bare sum.
-/
import proofs.«110314_j50130858279651_1_alg».proof.Proof.Gen.KernelIdeal.Skeleton
import proofs.«110314_j50130858279651_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen
open scoped BigOperators

/-! ## A matrix product into the zero splat, at an entry -/

theorem lhs_rc_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_rc_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_rc_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_rc_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A tile of 512 rows against a square matrix: entry (r, c) is the sum over the 1024 inner positions. -/
theorem mm_rows_apply {φ₁ φ₂ : FTy} (l : FVec Ideal S512x1024 φ₁) (w : FVec Ideal S1024x1024 φ₂) (r : Fin 512) (c : Fin 1024) :
    matmul dot_S512x1024_S1024x1024_S512x1024_1_0_0_1_n_n none l w (constant (F := Ideal) S512x1024 .f32 0x00000000#32) (ix2 r c)
      = ∑ k : Fin 1024, l (ix2 r k) * w (ix2 k c) := by
  refine (Ideal.matmul_constant_zero_apply dot_S512x1024_S1024x1024_S512x1024_1_0_0_1_n_n none l w (ix2 r c)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r c) ((ValueIdx.contrEquiv1 dot_S512x1024_S1024x1024_S512x1024_1_0_0_1_n_n 1024 rfl rfl).symm k) = ix2 r k := funext fun a => Fin.ext (by
    match a with
    | ⟨0, _⟩ => exact lhs_rc_0 _ _
    | ⟨1, _⟩ => exact (lhs_rc_1 _ _).trans hk)
  have er : dot_S512x1024_S1024x1024_S512x1024_1_0_0_1_n_n.rhsIdx (ix2 r c) ((ValueIdx.contrEquiv1 dot_S512x1024_S1024x1024_S512x1024_1_0_0_1_n_n 1024 rfl rfl).symm k) = ix2 k c := funext fun a => Fin.ext (by
    match a with
    | ⟨0, _⟩ => exact (rhs_rc_0 _ _).trans hk
    | ⟨1, _⟩ => exact rhs_rc_1 _ _)
  rw [el, er]

theorem lhs_sq_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_sq_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_sq_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_sq_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Two square matrices: entry (r, c) is the sum over the 1024 inner positions. -/
theorem mm_sq_apply {φ₁ φ₂ : FTy} (l : FVec Ideal S1024x1024 φ₁) (w : FVec Ideal S1024x1024 φ₂) (r c : Fin 1024) :
    matmul dot_S1024x1024_S1024x1024_S1024x1024_1_0_0_1_n_n none l w (constant (F := Ideal) S1024x1024 .f32 0x00000000#32) (ix2 r c)
      = ∑ k : Fin 1024, l (ix2 r k) * w (ix2 k c) := by
  refine (Ideal.matmul_constant_zero_apply dot_S1024x1024_S1024x1024_S1024x1024_1_0_0_1_n_n none l w (ix2 r c)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 r c) ((ValueIdx.contrEquiv1 dot_S1024x1024_S1024x1024_S1024x1024_1_0_0_1_n_n 1024 rfl rfl).symm k) = ix2 r k := funext fun a => Fin.ext (by
    match a with
    | ⟨0, _⟩ => exact lhs_sq_0 _ _
    | ⟨1, _⟩ => exact (lhs_sq_1 _ _).trans hk)
  have er : dot_S1024x1024_S1024x1024_S1024x1024_1_0_0_1_n_n.rhsIdx (ix2 r c) ((ValueIdx.contrEquiv1 dot_S1024x1024_S1024x1024_S1024x1024_1_0_0_1_n_n 1024 rfl rfl).symm k) = ix2 k c := funext fun a => Fin.ext (by
    match a with
    | ⟨0, _⟩ => exact (rhs_sq_0 _ _).trans hk
    | ⟨1, _⟩ => exact rhs_sq_1 _ _)
  rw [el, er]

theorem lhs_tt_0 (i : S1024x1024.Idx) (q : dot_S512x1024_S512x1024_S1024x1024_0_0_1_1_n_n.contr.Idx) :
    (dot_S512x1024_S512x1024_S1024x1024_0_0_1_1_n_n.lhsIdx i q 0).val = (q ⟨0, by decide⟩).val :=
  dot_S512x1024_S512x1024_S1024x1024_0_0_1_1_n_n.lhsIdx_val_of_single rfl i q
theorem lhs_tt_1 (i : S1024x1024.Idx) (q : dot_S512x1024_S512x1024_S1024x1024_0_0_1_1_n_n.contr.Idx) :
    (dot_S512x1024_S512x1024_S1024x1024_0_0_1_1_n_n.lhsIdx i q 1).val = (i 0).val := by
  unfold DotDims.lhsIdx
  rw [dif_neg (show ¬(1 : Fin S512x1024.rank) ∈ dot_S512x1024_S512x1024_S1024x1024_0_0_1_1_n_n.lhsBatch by decide), dif_pos (show (1 : Fin S512x1024.rank) ∈ dot_S512x1024_S512x1024_S1024x1024_0_0_1_1_n_n.lhsNonContracting by decide)]
  rfl
theorem rhs_tt_0 (i : S1024x1024.Idx) (q : dot_S512x1024_S512x1024_S1024x1024_0_0_1_1_n_n.contr.Idx) :
    (dot_S512x1024_S512x1024_S1024x1024_0_0_1_1_n_n.rhsIdx i q 0).val = (q ⟨0, by decide⟩).val :=
  dot_S512x1024_S512x1024_S1024x1024_0_0_1_1_n_n.rhsIdx_val_of_single rfl i q
theorem rhs_tt_1 (i : S1024x1024.Idx) (q : dot_S512x1024_S512x1024_S1024x1024_0_0_1_1_n_n.contr.Idx) :
    (dot_S512x1024_S512x1024_S1024x1024_0_0_1_1_n_n.rhsIdx i q 1).val = (i 1).val := by
  unfold DotDims.rhsIdx
  rw [dif_neg (show ¬(1 : Fin S512x1024.rank) ∈ dot_S512x1024_S512x1024_S1024x1024_0_0_1_1_n_n.rhsBatch by decide), dif_pos (show (1 : Fin S512x1024.rank) ∈ dot_S512x1024_S512x1024_S1024x1024_0_0_1_1_n_n.rhsNonContracting by decide)]
  rfl

/-- Two tiles of 512 rows contracted over their rows: entry (d, e) is the sum over the 512 rows. -/
theorem mm_cols_apply {φ₁ φ₂ : FTy} (l : FVec Ideal S512x1024 φ₁) (w : FVec Ideal S512x1024 φ₂) (d e : Fin 1024) :
    matmul dot_S512x1024_S512x1024_S1024x1024_0_0_1_1_n_n none l w (constant (F := Ideal) S1024x1024 .f32 0x00000000#32) (ix2 d e)
      = ∑ r : Fin 512, l (ix2 r d) * w (ix2 r e) := by
  refine (Ideal.matmul_constant_zero_apply dot_S512x1024_S512x1024_S1024x1024_0_0_1_1_n_n none l w (ix2 d e)).trans ?_
  rw [← Equiv.sum_comp (ValueIdx.contrEquiv1 dot_S512x1024_S512x1024_S1024x1024_0_0_1_1_n_n 512 rfl rfl).symm]
  refine Finset.sum_congr rfl fun k _ => ?_
  have hk := ValueIdx.contrEquiv1_symm_val dot_S512x1024_S512x1024_S1024x1024_0_0_1_1_n_n 512 rfl rfl k
  have el : dot_S512x1024_S512x1024_S1024x1024_0_0_1_1_n_n.lhsIdx (ix2 d e) ((ValueIdx.contrEquiv1 dot_S512x1024_S512x1024_S1024x1024_0_0_1_1_n_n 512 rfl rfl).symm k) = ix2 k d := funext fun a => Fin.ext (by
    match a with
    | ⟨0, _⟩ => exact (lhs_tt_0 _ _).trans hk
    | ⟨1, _⟩ => exact lhs_tt_1 _ _)
  have er : dot_S512x1024_S512x1024_S1024x1024_0_0_1_1_n_n.rhsIdx (ix2 d e) ((ValueIdx.contrEquiv1 dot_S512x1024_S512x1024_S1024x1024_0_0_1_1_n_n 512 rfl rfl).symm k) = ix2 k e := funext fun a => Fin.ext (by
    match a with
    | ⟨0, _⟩ => exact (rhs_tt_0 _ _).trans hk
    | ⟨1, _⟩ => exact rhs_tt_1 _ _)
  rw [el, er]

/-! ## The payloads -/

/-- The zero splat is zero at every entry. -/
theorem pay1_apply (j : S1024x1024.Idx) : k0_pay1 (F := Ideal) j = 0 := by
  unfold k0_pay1
  refine (congrFun (shapeCast_self _ shapeCasts_S1024x1024_S1024x1024) j).trans ?_
  exact Ideal.ofBits_zero_f32

/-- One tile's update of the accumulator, at entry (d, e). -/
theorem pay2_apply (x1b x2b : Vec Ideal S1x512x1024 .bf16) (wq wk : Vec Ideal S1024x1024 .bf16) (acc : Vec Ideal S1024x1024 .f32)
    (d e : Fin 1024) :
    k0_pay2 x1b wq x2b wk acc (ix2 d e)
      = acc (ix2 d e) + ∑ r : Fin 512, (∑ j : Fin 1024, x1b (ix3 0 r j) * wq (ix2 j d)) * (∑ j : Fin 1024, x2b (ix3 0 r j) * wk (ix2 j e)) := by
  unfold k0_pay2
  refine (congrFun (shapeCast_self _ shapeCasts_S1024x1024_S1024x1024) (ix2 d e)).trans ?_
  refine congrArg (acc (ix2 d e) + ·) ?_
  refine (mm_cols_apply _ _ d e).trans ?_
  refine Finset.sum_congr rfl fun r _ => ?_
  refine congrArg₂ (· * ·) ?_ ?_
  · refine (mm_rows_apply _ _ r d).trans ?_
    refine Finset.sum_congr rfl fun j _ => ?_
    exact congrArg₂ (· * ·) (shapeCast_1ab_ab_apply x1b shapeCasts_S1x512x1024_S512x1024 r j)
      (congrFun (shapeCast_self wq shapeCasts_S1024x1024_S1024x1024) (ix2 j d))
  · refine (mm_rows_apply _ _ r e).trans ?_
    refine Finset.sum_congr rfl fun j _ => ?_
    exact congrArg₂ (· * ·) (shapeCast_1ab_ab_apply x2b shapeCasts_S1x512x1024_S512x1024 r j)
      (congrFun (shapeCast_self wk shapeCasts_S1024x1024_S1024x1024) (ix2 j e))
/-! ## A row reduction kept as a column -/

/-- A vector [1024] viewed as a column [1024, 1] and broadcast along the rows reads, at (d, e), the vector at d. -/
theorem col_apply {α : Type} (v : S1024.Idx → α) (d e : Fin 1024) :
    broadcastTo S1024x1024 (shapeCast S1024x1 v shapeCasts_S1024_S1024x1) broadcasts_S1024x1_S1024x1024 (ix2 d e) = v (ix1 d) := by
  refine (broadcastTo_apply _ broadcasts_S1024x1_S1024x1024 (ix2 d e) (ix2 d (0 : Fin 1)) fun a => ?_).trans ?_
  · match a with
    | ⟨0, _⟩ => show d.val = if (1024 : Nat) = 1 then 0 else d.val; rw [if_neg (by decide)]
    | ⟨1, _⟩ => show 0 = if (1 : Nat) = 1 then 0 else e.val; rw [if_pos rfl]
  · exact shapeCast_apply v shapeCasts_S1024_S1024x1 (ix2 d (0 : Fin 1)) (ix1 d) (by
      rw [Shape.rowMajor_val_two, Shape.rowMajor_val_one]
      show d.val = d.val * 1 + 0
      omega)

/-- Row d of a [1024, 1024] array with the column coordinate put back. -/
theorem lift_row (d k : Fin 1024) : reduces_S1024x1024_S1024.lift (ix1 d) k = ix2 d k :=
  funext fun a => Fin.ext (by match a with | ⟨0, _⟩ => rfl | ⟨1, _⟩ => rfl)

/-- The maximum along a row, folded from −∞ and taken once more against −∞. -/
theorem rowmax_apply (z : FVec Ideal S1024x1024 .f32) (d : Fin 1024) :
    maximumf (broadcast S1024 (Scalar.ofBits (F := Ideal) .f32 0xFF800000#32))
      (multiReduction .maximumf [1] S1024 z 0xFF800000#32 reduces_S1024x1024_S1024 (.inl rfl) rfl) (ix1 d)
      = Cert.Attn.rowMax (fun e' => z (ix2 d e')) := by
  have e : (z ∘ reduces_S1024x1024_S1024.lift (ix1 d)) = fun e' : Fin 1024 => z (ix2 d e') :=
    funext fun (k : Fin 1024) => congrArg z (lift_row d k)
  rw [maximumf_apply, broadcast_apply,
    Ideal.multiReduction_maximumf_single z 0xFF800000#32 reduces_S1024x1024_S1024 (.inl rfl) rfl (ix1 d), e]
  rfl

/-- The sum along a row. -/
theorem rowsum_apply (y : FVec Ideal S1024x1024 .f32) (d : Fin 1024) :
    multiReduction .add [1] S1024 y 0x00000000#32 reduces_S1024x1024_S1024 (.inl rfl) rfl (ix1 d)
      = ∑ e' : Fin 1024, y (ix2 d e') := by
  refine (Ideal.multiReduction_add_single y 0x00000000#32 reduces_S1024x1024_S1024 (.inl rfl) rfl (ix1 d)).trans ?_
  exact Finset.sum_congr rfl fun (k : Fin 1024) _ => congrArg y (lift_row d k)

/-- The row maxima as a column broadcast back over the rows. -/
abbrev maxCol (z : FVec Ideal S1024x1024 .f32) : FVec Ideal S1024x1024 .f32 :=
  broadcastTo S1024x1024 (shapeCast S1024x1 (maximumf (broadcast S1024 (Scalar.ofBits (F := Ideal) .f32 0xFF800000#32))
    (multiReduction .maximumf [1] S1024 z 0xFF800000#32 reduces_S1024x1024_S1024 (.inl rfl) rfl)) shapeCasts_S1024_S1024x1)
    broadcasts_S1024x1_S1024x1024

/-- The row sums as a column broadcast back over the rows. -/
abbrev sumCol (y : FVec Ideal S1024x1024 .f32) : FVec Ideal S1024x1024 .f32 :=
  broadcastTo S1024x1024 (shapeCast S1024x1 (multiReduction .add [1] S1024 y 0x00000000#32 reduces_S1024x1024_S1024 (.inl rfl) rfl)
    shapeCasts_S1024_S1024x1) broadcasts_S1024x1_S1024x1024

theorem maxCol_apply (z : FVec Ideal S1024x1024 .f32) (d e : Fin 1024) :
    maxCol z (ix2 d e) = Cert.Attn.rowMax (fun e' => z (ix2 d e')) :=
  (col_apply _ d e).trans (rowmax_apply z d)

theorem sumCol_apply (y : FVec Ideal S1024x1024 .f32) (d e : Fin 1024) :
    sumCol y (ix2 d e) = ∑ e' : Fin 1024, y (ix2 d e') :=
  (col_apply _ d e).trans (rowsum_apply y d)

/-- The softmax along the rows of an array, at entry (d, e). -/
theorem softmax_apply (z : FVec Ideal S1024x1024 .f32) (d e : Fin 1024) :
    divf (exp (subf z (maxCol z))) (sumCol (exp (subf z (maxCol z)))) (ix2 d e)
      = Cert.Attn.softmaxRow (fun e' => z (ix2 d e')) e := by
  have hexp : ∀ e' : Fin 1024, exp (subf z (maxCol z)) (ix2 d e')
      = Ideal.exp (z (ix2 d e') - Cert.Attn.rowMax (fun e'' => z (ix2 d e''))) :=
    fun e' => congrArg (fun m => Ideal.exp (z (ix2 d e') - m)) (maxCol_apply z d e')
  unfold Cert.Attn.softmaxRow
  refine congrArg₂ Ideal.div (hexp e) ?_
  exact (sumCol_apply _ d e).trans (Finset.sum_congr rfl fun e' _ => hexp e')

/-- The stored weights at entry (d, e): the softmax of row d of the accumulator scaled by 2⁻⁵. -/
theorem pay3_apply (acc : Vec Ideal S1024x1024 .f32) (d e : Fin 1024) :
    k0_pay3 acc (ix3 0 d e) = Cert.Attn.softmaxScaled (fun e' => acc (ix2 d e')) e := by
  unfold k0_pay3
  refine (shapeCast_ab_1ab_apply _ shapeCasts_S1024x1024_S1x1024x1024 0 d e).trans ?_
  refine (softmax_apply (mulf acc (broadcast S1024x1024 (Scalar.ofBits (F := Ideal) .f32 0x3D000000#32))) d e).trans ?_
  rfl

/-- One tile of the mixing kernel at entry (r, e). -/
theorem mix_apply (x2b : Vec Ideal S1x1024x1024 .bf16) (wv : Vec Ideal S1024x1024 .bf16) (wt : Vec Ideal S1x1024x1024 .bf16)
    (r e : Fin 1024) :
    k1_pay1 x2b wv wt (ix3 0 r e)
      = ∑ d : Fin 1024, (∑ j : Fin 1024, x2b (ix3 0 r j) * wv (ix2 j d)) * wt (ix3 0 d e) := by
  unfold k1_pay1
  refine (shapeCast_ab_1ab_apply _ shapeCasts_S1024x1024_S1x1024x1024 0 r e).trans ?_
  refine (mm_sq_apply _ _ r e).trans ?_
  refine Finset.sum_congr rfl fun d _ => ?_
  refine congrArg₂ (· * ·) ?_ (shapeCast_1ab_ab_apply wt shapeCasts_S1x1024x1024_S1024x1024 d e)
  refine (mm_sq_apply _ _ r d).trans ?_
  refine Finset.sum_congr rfl fun j _ => ?_
  exact congrArg₂ (· * ·) (shapeCast_1ab_ab_apply x2b shapeCasts_S1x1024x1024_S1024x1024 r j)
    (congrFun (shapeCast_self wv shapeCasts_S1024x1024_S1024x1024) (ix2 j d))

end Cert.KernelIdeal.Pay

end
-- ==== Proof.KiVal0.lean ====
/-
  The score kernel's output array.

  Position n = 8·b + s of the grid 8 × 8 holds tile s (rows 512·s … 512·s + 511) of batch b of x₁ and of x₂, and
  all of Wq and Wk. The accumulator after position n is, at entry (d, e), the running total of the score A[b, d, e]
  over the tiles 0 … s: zero plus tile 0's 512 terms at s = 0, the previous total plus tile s's terms afterwards.
  After tile 7 it is the score itself, and the block written back — batch b of the output array — is the softmax of
  its rows scaled by 2⁻⁵. The eight written blocks tile the output array.
-/
import proofs.«110314_j50130858279651_1_alg».proof.Proof.KiDat
import proofs.«110314_j50130858279651_1_alg».proof.Proof.KiPay
import proofs.«110314_j50130858279651_1_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand
open scoped BigOperators

-- the core's buffer contents when the kernel is entered
variable (V : (c : Dev nD) → (b : Ref sig .tc) → Buf (Elt Ideal) ((c : Thread nD τ).loc b))

/-- The windows' index maps over the grid: position t reads tile t mod 8 of batch t / 8 of x₁ and of x₂, all of Wq and
    of Wk, and its output block is batch t / 8. -/
theorem idx_facts0 : ∀ t : Fin cfg0.N,
    win0_0.index t (0 : Fin 3) = t.val / 8 ∧ win0_0.index t (1 : Fin 3) = t.val % 8 ∧ win0_0.index t (2 : Fin 3) = 0
  ∧ win0_1.index t (0 : Fin 3) = t.val / 8 ∧ win0_1.index t (1 : Fin 3) = t.val % 8 ∧ win0_1.index t (2 : Fin 3) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 3) = t.val / 8 ∧ win0_4.index t (1 : Fin 3) = 0 ∧ win0_4.index t (2 : Fin 3) = 0 :=
  (by decide +kernel : ∀ t : Fin grid0.N, _)

/-- The blocks position t finds: tile t mod 8 of batch t / 8 of x₁ and of x₂, and all of Wq and Wk. -/
abbrev tile1 (c : Dev nD) (t : Fin cfg0.N) : Vec Ideal S1x512x1024 .bf16 := blk0 V c 0 t
abbrev tile2 (c : Dev nD) (t : Fin cfg0.N) : Vec Ideal S1x512x1024 .bf16 := blk0 V c 1 t
abbrev matQ (c : Dev nD) (t : Fin cfg0.N) : Vec Ideal S1024x1024 .bf16 := blk0 V c 2 t
abbrev matK (c : Dev nD) (t : Fin cfg0.N) : Vec Ideal S1024x1024 .bf16 := blk0 V c 3 t

/-- Row r of x₁'s tile at position t is row 512·(t mod 8) + r of batch t / 8. -/
theorem tile1_apply (c : Dev nD) (t : Fin cfg0.N) (y : S1x512x1024.Idx) (k : S8x4096x1024.Idx)
    (h0 : (k 0).val = t.val / 8) (h1 : (k 1).val = 512 * (t.val % 8) + (y 1).val) (h2 : (k 2).val = (y 2).val) :
    tile1 V c t y = (V c main_call0_v0 : S8x4096x1024.Idx → EReal) k := by
  obtain ⟨e0, e1, e2, -⟩ := idx_facts0 t
  unfold tile1 blk0
  rw [View.read_apply]
  show V c main_call0_v0 _ = V c main_call0_v0 k
  congr 1
  funext a
  apply Fin.ext
  have hy0 : (y 0).val < 1 := (y 0).isLt
  match a with
  | ⟨0, _⟩ => show win0_0.index t (0 : Fin 3) * 1 + 1 * (y 0).val = (k 0).val; rw [e0, h0]; omega
  | ⟨1, _⟩ => show win0_0.index t (1 : Fin 3) * 512 + 1 * (y 1).val = (k 1).val; rw [e1, h1]; omega
  | ⟨2, _⟩ => show win0_0.index t (2 : Fin 3) * 1024 + 1 * (y 2).val = (k 2).val; rw [e2, h2]; omega

/-- The same for x₂'s tile. -/
theorem tile2_apply (c : Dev nD) (t : Fin cfg0.N) (y : S1x512x1024.Idx) (k : S8x4096x1024.Idx)
    (h0 : (k 0).val = t.val / 8) (h1 : (k 1).val = 512 * (t.val % 8) + (y 1).val) (h2 : (k 2).val = (y 2).val) :
    tile2 V c t y = (V c main_call0_v1 : S8x4096x1024.Idx → EReal) k := by
  obtain ⟨-, -, -, e0, e1, e2, -⟩ := idx_facts0 t
  unfold tile2 blk0
  rw [View.read_apply]
  show V c main_call0_v1 _ = V c main_call0_v1 k
  congr 1
  funext a
  apply Fin.ext
  have hy0 : (y 0).val < 1 := (y 0).isLt
  match a with
  | ⟨0, _⟩ => show win0_1.index t (0 : Fin 3) * 1 + 1 * (y 0).val = (k 0).val; rw [e0, h0]; omega
  | ⟨1, _⟩ => show win0_1.index t (1 : Fin 3) * 512 + 1 * (y 1).val = (k 1).val; rw [e1, h1]; omega
  | ⟨2, _⟩ => show win0_1.index t (2 : Fin 3) * 1024 + 1 * (y 2).val = (k 2).val; rw [e2, h2]; omega

/-- Wq's block is all of Wq at every position, -/
theorem matQ_apply (c : Dev nD) (t : Fin cfg0.N) (y : S1024x1024.Idx) :
    matQ V c t y = (V c main_call0_v2 : S1024x1024.Idx → EReal) y := by
  obtain ⟨-, -, -, -, -, -, e0, e1, -⟩ := idx_facts0 t
  unfold matQ blk0
  rw [View.read_apply]
  show V c main_call0_v2 _ = V c main_call0_v2 y
  congr 1
  funext a
  apply Fin.ext
  match a with
  | ⟨0, _⟩ => show win0_2.index t (0 : Fin 2) * 1024 + 1 * (y 0).val = (y 0).val; rw [e0]; omega
  | ⟨1, _⟩ => show win0_2.index t (1 : Fin 2) * 1024 + 1 * (y 1).val = (y 1).val; rw [e1]; omega

/-- and Wk's all of Wk. -/
theorem matK_apply (c : Dev nD) (t : Fin cfg0.N) (y : S1024x1024.Idx) :
    matK V c t y = (V c main_call0_v3 : S1024x1024.Idx → EReal) y := by
  obtain ⟨-, -, -, -, -, -, -, -, e0, e1, -⟩ := idx_facts0 t
  unfold matK blk0
  rw [View.read_apply]
  show V c main_call0_v3 _ = V c main_call0_v3 y
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega

/-- Row r of the tile at position t (tile s of batch b): the projected query's entry d times the projected key's entry e
    is the score's term at sequence position 512·s + r. -/
theorem tile_term (c : Dev nD) (t : Fin cfg0.N) (b : Fin 8) (s : ℕ) (hs : s < 8) (hb : t.val / 8 = b.val) (hsv : t.val % 8 = s)
    (d e : Fin 1024) (r : Fin 512) :
    (∑ j : Fin 1024, tile1 V c t (ix3 0 r j) * matQ V c t (ix2 j d)) * (∑ j : Fin 1024, tile2 V c t (ix3 0 r j) * matK V c t (ix2 j e))
    = Cert.Attn.term (V c main_call0_v0) (V c main_call0_v1) (V c main_call0_v2) (V c main_call0_v3) b d e
        ⟨512 * s + r.val, Cert.LibBlockSum.block_lt Cert.Attn.tiles hs r.isLt⟩ := by
  unfold Cert.Attn.term Cert.Attn.proj
  refine congrArg₂ (· * ·) ?_ ?_
  · refine Finset.sum_congr rfl fun j _ => ?_
    rw [tile1_apply V c t (ix3 0 r j) (ix3 b ⟨512 * s + r.val, Cert.LibBlockSum.block_lt Cert.Attn.tiles hs r.isLt⟩ j) hb.symm
      (by show 512 * s + r.val = 512 * (t.val % 8) + r.val; rw [hsv]) rfl, matQ_apply]
  · refine Finset.sum_congr rfl fun j _ => ?_
    rw [tile2_apply V c t (ix3 0 r j) (ix3 b ⟨512 * s + r.val, Cert.LibBlockSum.block_lt Cert.Attn.tiles hs r.isLt⟩ j) hb.symm
      (by show 512 * s + r.val = 512 * (t.val % 8) + r.val; rw [hsv]) rfl, matK_apply]

/-- The first tile of a batch: zero plus its 512 terms. -/
theorem acc_first (c : Dev nD) (t : Fin cfg0.N) (b : Fin 8) (hb : t.val / 8 = b.val) (h0 : t.val % 8 = 0) (d e : Fin 1024) :
    accAt (F := Ideal) V c t.val t.isLt (ix2 d e)
      = Cert.Attn.scoreAcc (V c main_call0_v0) (V c main_call0_v1) (V c main_call0_v2) (V c main_call0_v3) b d e (0 + 1) := by
  refine (congrFun (accAt_first V c t h0) (ix2 d e)).trans ?_
  refine (Pay.pay2_apply (tile1 V c t) (tile2 V c t) (matQ V c t) (matK V c t) (k0_pay1 (F := Ideal)) d e).trans ?_
  rw [Pay.pay1_apply, Cert.Attn.scoreAcc_succ _ _ _ _ b d e (by omega : 0 < 8), Cert.Attn.scoreAcc_zero]
  refine congrArg₂ (· + ·) rfl ?_
  exact Finset.sum_congr rfl fun r _ => tile_term V c t b 0 (by omega) hb h0 d e r

/-- A later tile: what the position before left plus its 512 terms. -/
theorem acc_next (c : Dev nD) (t : Fin cfg0.N) (b : Fin 8) (s : ℕ) (hs : s + 1 < 8) (hb : t.val / 8 = b.val) (hsv : t.val % 8 = s + 1)
    (d e : Fin 1024)
    (ih : accAt (F := Ideal) V c (t.val - 1) (Nat.lt_of_le_of_lt (Nat.sub_le _ _) t.isLt) (ix2 d e)
      = Cert.Attn.scoreAcc (V c main_call0_v0) (V c main_call0_v1) (V c main_call0_v2) (V c main_call0_v3) b d e (s + 1)) :
    accAt (F := Ideal) V c t.val t.isLt (ix2 d e)
      = Cert.Attn.scoreAcc (V c main_call0_v0) (V c main_call0_v1) (V c main_call0_v2) (V c main_call0_v3) b d e (s + 1 + 1) := by
  refine (congrFun (accAt_next V c t (by omega)) (ix2 d e)).trans ?_
  refine (Pay.pay2_apply (tile1 V c t) (tile2 V c t) (matQ V c t) (matK V c t) (accAt (F := Ideal) V c (t.val - 1) (Nat.lt_of_le_of_lt (Nat.sub_le _ _) t.isLt)) d e).trans ?_
  rw [Cert.Attn.scoreAcc_succ _ _ _ _ b d e hs]
  refine congrArg₂ (· + ·) ih ?_
  exact Finset.sum_congr rfl fun r _ => tile_term V c t b (s + 1) hs hb hsv d e r

/-- The accumulator depends on the position only. -/
theorem accAt_congr (c : Dev nD) {n n' : ℕ} (e : n = n') (h : n < cfg0.N) (h' : n' < cfg0.N) :
    accAt (F := Ideal) V c n h = accAt V c n' h' := by subst e; rfl

/-- The accumulator after tile s of batch b, by induction on the tile. -/
theorem accAt_pos (c : Dev nD) (b : Fin 8) (d e : Fin 1024) :
    ∀ (s : ℕ) (hs : s < 8) (h : 8 * b.val + s < cfg0.N),
      accAt (F := Ideal) V c (8 * b.val + s) h (ix2 d e)
        = Cert.Attn.scoreAcc (V c main_call0_v0) (V c main_call0_v1) (V c main_call0_v2) (V c main_call0_v3) b d e (s + 1)
  | 0, hs, h => acc_first V c ⟨8 * b.val + 0, h⟩ b (by show (8 * b.val + 0) / 8 = b.val; omega) (by show (8 * b.val + 0) % 8 = 0; omega) d e
  | s + 1, hs, h =>
    acc_next V c ⟨8 * b.val + (s + 1), h⟩ b s hs (by show (8 * b.val + (s + 1)) / 8 = b.val; omega)
      (by show (8 * b.val + (s + 1)) % 8 = s + 1; omega) d e
      ((congrFun (accAt_congr V c (by show 8 * b.val + (s + 1) - 1 = 8 * b.val + s; omega) _ (by omega)) (ix2 d e)).trans
        (accAt_pos c b d e s (by omega) (by omega)))

/-- The accumulator after position n = 8·b + s, at entry (d, e): the score's running total after s + 1 tiles. -/
theorem accAt_apply (c : Dev nD) (b s : Fin 8) (d e : Fin 1024) (h : 8 * b.val + s.val < cfg0.N) :
    accAt (F := Ideal) V c (8 * b.val + s.val) h (ix2 d e)
      = Cert.Attn.scoreAcc (V c main_call0_v0) (V c main_call0_v1) (V c main_call0_v2) (V c main_call0_v3) b d e (s.val + 1) :=
  accAt_pos V c b d e s.val s.isLt h

/-- After the last tile of batch b, row d of the accumulator is row d of the score matrix of batch b. -/
theorem acc_last_row (c : Dev nD) (t : Fin cfg0.N) (h7 : t.val % 8 = 7) (b : Fin 8) (hb : t.val / 8 = b.val) (d e' : Fin 1024) :
    accAt (F := Ideal) V c t.val t.isLt (ix2 d e')
      = Cert.Attn.scores (V c main_call0_v0) (V c main_call0_v1) (V c main_call0_v2) (V c main_call0_v3) b d e' := by
  have hN : cfg0.N = 64 := N_0
  have ht : t.val < cfg0.N := t.isLt
  rw [← Cert.Attn.scoreAcc_last]
  exact (congrFun (accAt_congr V c (by omega : t.val = 8 * b.val + 7) t.isLt (by omega)) (ix2 d e')).trans
    (accAt_pos V c b d e' 7 (by omega) (by omega))

/-- The weights array at an index with coordinates (b, d, e). -/
theorem weightsArr_at (x1 x2 : Cert.Attn.Seqs) (wq wk : Cert.Attn.Mat) (i : S8x1024x1024.Idx) (b : Fin 8) (d e : Fin 1024)
    (h0 : (i 0).val = b.val) (h1 : (i 1).val = d.val) (h2 : (i 2).val = e.val) :
    Cert.Attn.weightsArr x1 x2 wq wk i = Cert.Attn.weights x1 x2 wq wk b d e := by
  show Cert.Attn.weights x1 x2 wq wk (i 0) (i 1) (i 2) = _
  have a0 : i 0 = b := Fin.ext h0
  have a1 : i 1 = d := Fin.ext h1
  have a2 : i 2 = e := Fin.ext h2
  rw [a0, a1, a2]

/-- Entry (0, d, e) of position t's output block sits at (t / 8, d, e) of the output array. -/
theorem out_emb (t : Fin cfg0.N) (y : S1x1024x1024.Idx) :
    ((((cfg0.win 4).blk t).view.emb y) 0).val = t.val / 8
    ∧ ((((cfg0.win 4).blk t).view.emb y) 1).val = (y 1).val
    ∧ ((((cfg0.win 4).blk t).view.emb y) 2).val = (y 2).val := by
  obtain ⟨-, -, -, -, -, -, -, -, -, -, e0, e1, e2⟩ := idx_facts0 t
  have hy0 : (y 0).val < 1 := (y 0).isLt
  refine ⟨?_, ?_, ?_⟩
  · show win0_4.index t (0 : Fin 3) * 1 + 1 * (y 0).val = _; rw [e0]; omega
  · show win0_4.index t (1 : Fin 3) * 1024 + 1 * (y 1).val = _; rw [e1]; omega
  · show win0_4.index t (2 : Fin 3) * 1024 + 1 * (y 2).val = _; rw [e2]; omega

/-- What a last tile's position writes back is its block of the weights array. -/
theorem flushed_weights (c : Dev nD) (t : Fin cfg0.N) (hf : (cfg0.win 4).flush t = true) :
    (dat0 (F := Ideal) V c).flushed 4 t
      = ((cfg0.win 4).blk t).view.read (Elt Ideal)
          (Cert.Attn.weightsArr (V c main_call0_v0) (V c main_call0_v1) (V c main_call0_v2) (V c main_call0_v3)) := by
  have h7 : t.val % 8 = 7 := (flush0_4 t).mp hf
  have hN : cfg0.N = 64 := N_0
  have ht : t.val < cfg0.N := t.isLt
  have hb : t.val / 8 < 8 := by omega
  show (cfg0.win 4).cut (grid0.coords t) ((dat0 V c).after 4 t) = _
  rw [after0_4]
  funext y
  obtain ⟨y0, d, e, rfl⟩ : ∃ (y0 : Fin 1) (d e : Fin 1024), y = ix3 y0 d e := ⟨y 0, y 1, y 2, eq_ix3 y⟩
  obtain rfl : y0 = 0 := Subsingleton.elim _ _
  rw [View.read_apply]
  show k0_pay3 (accAt (F := Ideal) V c t.val t.isLt) (ix3 0 d e)
    = Cert.Attn.weightsArr (V c main_call0_v0) (V c main_call0_v1) (V c main_call0_v2) (V c main_call0_v3)
        (((cfg0.win 4).blk t).view.emb (ix3 0 d e))
  obtain ⟨g0, g1, g2⟩ := out_emb t (ix3 0 d e)
  rw [Pay.pay3_apply]
  refine Eq.trans ?_ (weightsArr_at _ _ _ _ _ ⟨t.val / 8, hb⟩ d e g0 g1 g2).symm
  unfold Cert.Attn.weights
  exact congrArg (fun a => Cert.Attn.softmaxScaled a e) (funext fun e' => acc_last_row V c t h7 ⟨t.val / 8, hb⟩ rfl d e')

/-- An index of the output array is in position t's block iff each coordinate is in the block's range on its axis. -/
theorem mem_out_blk (t : Fin cfg0.N) (i : S8x1024x1024.Idx) :
    i ∈ ((cfg0.win 4).blk t).view.set
      ↔ ∀ a : Fin 3, win0_4.index t a * S1x1024x1024.size a ≤ (i a).val
          ∧ (i a).val < win0_4.index t a * S1x1024x1024.size a + S1x1024x1024.size a := by
  show i ∈ ((View.whole main_call0_v5).slice (win0_4.rect t)).set ↔ _
  rw [View.set_slice_whole, Rect.mem_set_unit]
  exact Iff.rfl

/-- Batch b of the output array is the block of position 8·b + 7, a last tile's. -/
theorem cover_weights (i : S8x1024x1024.Idx) :
    ∃ t : Fin cfg0.N, (cfg0.win 4).flush t = true ∧ i ∈ ((cfg0.win 4).blk t).view.set := by
  have hN : cfg0.N = 64 := N_0
  have hi0 : (i 0).val < 8 := (i 0).isLt
  have hi1 : (i 1).val < 1024 := (i 1).isLt
  have hi2 : (i 2).val < 1024 := (i 2).isLt
  obtain ⟨t, ht⟩ : ∃ t : Fin cfg0.N, t.val = 8 * (i 0).val + 7 := ⟨⟨8 * (i 0).val + 7, by omega⟩, rfl⟩
  obtain ⟨-, -, -, -, -, -, -, -, -, -, e0, e1, e2⟩ := idx_facts0 t
  refine ⟨t, (flush0_4 t).mpr (by omega), ?_⟩
  rw [mem_out_blk]
  intro a
  match a with
  | ⟨0, _⟩ => show win0_4.index t (0 : Fin 3) * 1 ≤ (i 0).val ∧ (i 0).val < win0_4.index t (0 : Fin 3) * 1 + 1; rw [e0]; omega
  | ⟨1, _⟩ => show win0_4.index t (1 : Fin 3) * 1024 ≤ (i 1).val ∧ (i 1).val < win0_4.index t (1 : Fin 3) * 1024 + 1024; rw [e1]; omega
  | ⟨2, _⟩ => show win0_4.index t (2 : Fin 3) * 1024 ≤ (i 2).val ∧ (i 2).val < win0_4.index t (2 : Fin 3) * 1024 + 1024; rw [e2]; omega

/-- The score kernel's output array after its last position. -/
theorem weights_final (c : Dev nD) :
    (dat0 (F := Ideal) V c).arrAt 4 cfg0.N
      = Cert.Attn.weightsArr (V c main_call0_v0) (V c main_call0_v1) (V c main_call0_v2) (V c main_call0_v3) :=
  (dat0 (F := Ideal) V c).arrAt_eq_of_cover 4
    (Cert.Attn.weightsArr (V c main_call0_v0) (V c main_call0_v1) (V c main_call0_v2) (V c main_call0_v3))
    (fun t hf => flushed_weights V c t hf) cover_weights

end Cert.KernelIdeal.Val

end
-- ==== Proof.KiVal1.lean ====
/-
  The mixing kernel's output array.

  Position t = 4·b + s of the grid 8 × 4 holds rows 1024·s … 1024·s + 1023 of batch b of x₂, all of Wv, and batch
  b's weight matrix; it writes back the block of the same rows of the output. Entry (r, e) of that block is the sum
  over d of (row of x₂ against column d of Wv) times the weight (d, e). The 32 blocks tile the output array, so
  the array ends as the values mixed by the weights, entry by entry.
-/
import proofs.«110314_j50130858279651_1_alg».proof.Proof.KiDat
import proofs.«110314_j50130858279651_1_alg».proof.Proof.KiPay
import proofs.«110314_j50130858279651_1_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand
open scoped BigOperators

-- the core's buffer contents when the kernel is entered
variable (V : (c : Dev nD) → (b : Ref sig .tc) → Buf (Elt Ideal) ((c : Thread nD τ).loc b))

/-- The index maps of the four windows over the 32 positions: position t is batch t / 4 and row block t % 4;
    the value matrix is whole and the weights are batch t / 4's matrix. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 2) = 0 ∧ win1_1.index t (1 : Fin 2) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

/-- The block of x₂ at position t, read at (0, r, j), is x₂ at (t / 4, 1024 · (t % 4) + r, j). -/
theorem x2_read (c : Dev nD) (t : Fin cfg1.N) (y : S1x1024x1024.Idx) (i : S8x4096x1024.Idx)
    (h0 : (i 0).val = t.val / 4) (h1 : (i 1).val = 1024 * (t.val % 4) + (y 1).val) (h2 : (i 2).val = (y 2).val) :
    (blk1 (F := Ideal) V c 0 t : Vec Ideal S1x1024x1024 .bf16) y = (V c main_call0_v1 : S8x4096x1024.Idx → EReal) i := by
  obtain ⟨e0, e1, e2, -⟩ := idx_facts t
  unfold blk1
  rw [View.read_apply]
  show V c main_call0_v1 _ = V c main_call0_v1 _
  congr 1
  funext a
  apply Fin.ext
  match a with
  | ⟨0, _⟩ => show win1_0.index t (0 : Fin 3) * 1 + 1 * (y 0).val = (i 0).val; have hy : (y 0).val < 1 := (y 0).isLt; omega
  | ⟨1, _⟩ => show win1_0.index t (1 : Fin 3) * 1024 + 1 * (y 1).val = (i 1).val; omega
  | ⟨2, _⟩ => show win1_0.index t (2 : Fin 3) * 1024 + 1 * (y 2).val = (i 2).val; omega

/-- The block of Wv at every position is all of Wv. -/
theorem wv_read (c : Dev nD) (t : Fin cfg1.N) (y : S1024x1024.Idx) :
    (blk1 (F := Ideal) V c 1 t : Vec Ideal S1024x1024 .bf16) y = (V c main_call0_v4 : S1024x1024.Idx → EReal) y := by
  obtain ⟨-, -, -, e0, e1, -⟩ := idx_facts t
  unfold blk1
  rw [View.read_apply]
  show V c main_call0_v4 _ = V c main_call0_v4 _
  congr 1
  funext a
  apply Fin.ext
  match a with
  | ⟨0, _⟩ => show win1_1.index t (0 : Fin 2) * 1024 + 1 * (y 0).val = (y 0).val; omega
  | ⟨1, _⟩ => show win1_1.index t (1 : Fin 2) * 1024 + 1 * (y 1).val = (y 1).val; omega

/-- The block of the weights at position t, read at (0, d, e), is the weights at (t / 4, d, e). -/
theorem wt_read (c : Dev nD) (t : Fin cfg1.N) (y : S1x1024x1024.Idx) (i : S8x1024x1024.Idx)
    (h0 : (i 0).val = t.val / 4) (h1 : (i 1).val = (y 1).val) (h2 : (i 2).val = (y 2).val) :
    (blk1 (F := Ideal) V c 2 t : Vec Ideal S1x1024x1024 .bf16) y = (V c main_call0_v5 : S8x1024x1024.Idx → EReal) i := by
  obtain ⟨-, -, -, -, -, e0, e1, e2, -⟩ := idx_facts t
  unfold blk1
  rw [View.read_apply]
  show V c main_call0_v5 _ = V c main_call0_v5 _
  congr 1
  funext a
  apply Fin.ext
  match a with
  | ⟨0, _⟩ => show win1_2.index t (0 : Fin 3) * 1 + 1 * (y 0).val = (i 0).val; have hy : (y 0).val < 1 := (y 0).isLt; omega
  | ⟨1, _⟩ => show win1_2.index t (1 : Fin 3) * 1024 + 1 * (y 1).val = (i 1).val; omega
  | ⟨2, _⟩ => show win1_2.index t (2 : Fin 3) * 1024 + 1 * (y 2).val = (i 2).val; omega

/-- Entry (r, e) of the block position t computes is the mixed value at batch t / 4, row 1024 · (t % 4) + r, column e. -/
theorem mix_entry (c : Dev nD) (t : Fin cfg1.N) (r e : Fin 1024) (b : Fin 8) (s : Fin 4096)
    (hb : b.val = t.val / 4) (hs : s.val = 1024 * (t.val % 4) + r.val) :
    k1_pay1 (blk1 (F := Ideal) V c 0 t) (blk1 V c 1 t) (blk1 V c 2 t) (ix3 0 r e)
      = Cert.Attn.mix (V c main_call0_v1) (V c main_call0_v4) (V c main_call0_v5) b s e := by
  rw [Pay.mix_apply]
  unfold Cert.Attn.mix Cert.Attn.proj
  refine Finset.sum_congr rfl fun d _ => ?_
  rw [wt_read V c t (ix3 0 d e) (ix3 b d e) hb rfl rfl]
  congr 1
  refine Finset.sum_congr rfl fun j _ => ?_
  rw [x2_read V c t (ix3 0 r j) (ix3 b s j) hb hs rfl, wv_read]

/-- What position t writes back is its block of the mixed values. -/
theorem flushed_eq (c : Dev nD) (t : Fin cfg1.N) :
    (dat1 (F := Ideal) V c).flushed 3 t
      = ((cfg1.win 3).blk t).view.read (Elt Ideal)
          (Cert.Attn.mixArr (V c main_call0_v1) (V c main_call0_v4) (V c main_call0_v5)) := by
  show (cfg1.win 3).cut (grid1.coords t) ((dat1 (F := Ideal) V c).after 3 t) = _
  rw [after1_3]
  funext (y : S1x1024x1024.Idx)
  obtain ⟨a, r, e, rfl⟩ : ∃ (a : Fin 1) (r e : Fin 1024), y = ix3 a r e := ⟨y 0, y 1, y 2, eq_ix3 y⟩
  obtain rfl : a = 0 := Subsingleton.elim _ _
  rw [View.read_apply]
  obtain ⟨-, -, -, -, -, -, -, -, e0, e1, e2⟩ := idx_facts t
  have hb : ((((cfg1.win 3).blk t).view.emb (ix3 0 r e) : S8x4096x1024.Idx) 0).val = win1_3.index t (0 : Fin 3) * 1 + 1 * 0 := rfl
  have hs : ((((cfg1.win 3).blk t).view.emb (ix3 0 r e) : S8x4096x1024.Idx) 1).val = win1_3.index t (1 : Fin 3) * 1024 + 1 * r.val := rfl
  have he : ((((cfg1.win 3).blk t).view.emb (ix3 0 r e) : S8x4096x1024.Idx) 2).val = win1_3.index t (2 : Fin 3) * 1024 + 1 * e.val := rfl
  refine (mix_entry V c t r e ((((cfg1.win 3).blk t).view.emb (ix3 0 r e) : S8x4096x1024.Idx) 0)
    ((((cfg1.win 3).blk t).view.emb (ix3 0 r e) : S8x4096x1024.Idx) 1) (by rw [hb]; omega) (by rw [hs]; omega)).trans ?_
  show _ = Cert.Attn.mixArr _ _ _ _
  unfold Cert.Attn.mixArr
  congr 1
  apply Fin.ext
  rw [he]; omega

/-- An index of the output lies in position t's block exactly when each coordinate lies in the block's range. -/
theorem mem_blk (t : Fin cfg1.N) (i : S8x4096x1024.Idx) :
    i ∈ ((cfg1.win 3).blk t).view.set
      ↔ ∀ a : Fin 3, win1_3.index t a * S1x1024x1024.size a ≤ (i a).val
          ∧ (i a).val < win1_3.index t a * S1x1024x1024.size a + S1x1024x1024.size a := by
  show i ∈ ((View.whole main_v0).slice (win1_3.rect t)).set ↔ _
  rw [View.set_slice_whole, Rect.mem_set_unit]
  exact Iff.rfl

/-- Every index (b, s, e) of the output lies in the block of position 4 · b + s / 1024. -/
theorem cover (i : S8x4096x1024.Idx) :
    ∃ t : Fin cfg1.N, (cfg1.win 3).flush t = true ∧ i ∈ ((cfg1.win 3).blk t).view.set := by
  have hi0 : (i 0).val < 8 := (i 0).isLt
  have hi1 : (i 1).val < 4096 := (i 1).isLt
  have hi2 : (i 2).val < 1024 := (i 2).isLt
  have hN : cfg1.N = 32 := N_1
  obtain ⟨t, ht⟩ : ∃ t : Fin cfg1.N, t.val = 4 * (i 0).val + (i 1).val / 1024 :=
    ⟨⟨4 * (i 0).val + (i 1).val / 1024, by rw [hN]; omega⟩, rfl⟩
  refine ⟨t, flush1_3 t, ?_⟩
  rw [mem_blk]
  obtain ⟨-, -, -, -, -, -, -, -, e0, e1, e2⟩ := idx_facts t
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 1024 ≤ (i 1).val ∧ (i 1).val < win1_3.index t (1 : Fin 3) * 1024 + 1024
    omega
  | ⟨2, _⟩ =>
    show win1_3.index t (2 : Fin 3) * 1024 ≤ (i 2).val ∧ (i 2).val < win1_3.index t (2 : Fin 3) * 1024 + 1024
    omega

/-- The mixing kernel's output array after its last position. -/
theorem mix_final (c : Dev nD) :
    (dat1 (F := Ideal) V c).arrAt 3 cfg1.N
      = Cert.Attn.mixArr (V c main_call0_v1) (V c main_call0_v4) (V c main_call0_v5) := by
  exact (dat1 (F := Ideal) V c).arrAt_eq_of_cover 3
    (Cert.Attn.mixArr (V c main_call0_v1) (V c main_call0_v4) (V c main_call0_v5))
    (fun t _ => flushed_eq V c t) cover

end Cert.KernelIdeal.Val

end
-- ==== Proof.KiVal.lean ====
/-
  The idealized kernel's result array is the specification of its arguments.

  On the extended reals each cast to the 16-bit format is the identity, so the score kernel finds x₁, x₂, Wq, Wk in
  its four input arrays and the mixing kernel finds x₂, Wv and the score kernel's output, the attention weights.
  The mixing kernel's output is then the values mixed by those weights: the whole computation.
-/
import proofs.«110314_j50130858279651_1_alg».proof.Proof.KiRun
import proofs.«110314_j50130858279651_1_alg».proof.Proof.KiVal0
import proofs.«110314_j50130858279651_1_alg».proof.Proof.KiVal1
import proofs.«110314_j50130858279651_1_alg».proof.Proof.Spec
import Idealize.ShloMosaic.Lib.StableHlo.Run

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (m : (ℓ : Loc nD τ sig) → Buf (Elt Ideal) ℓ)

/-! ## The casts are the identity -/

theorem cast0 (c : Dev nD) : (V1 m c main_call0_v0 : Cert.Attn.Seqs) = (m ((c : Thread nD τ).loc main_arg0) : Cert.Attn.Seqs) := by
  show StableHlo.after hostOps0 (fun b => m (c, b)) (Proc.devRef .tc main_call0_v0) = _
  after_results; rfl
theorem cast1 (c : Dev nD) : (V1 m c main_call0_v1 : Cert.Attn.Seqs) = (m ((c : Thread nD τ).loc main_arg1) : Cert.Attn.Seqs) := by
  show StableHlo.after hostOps0 (fun b => m (c, b)) (Proc.devRef .tc main_call0_v1) = _
  after_results; rfl
theorem cast2 (c : Dev nD) : (V1 m c main_call0_v2 : Cert.Attn.Mat) = (m ((c : Thread nD τ).loc main_arg2) : Cert.Attn.Mat) := by
  show StableHlo.after hostOps0 (fun b => m (c, b)) (Proc.devRef .tc main_call0_v2) = _
  after_results; rfl
theorem cast3 (c : Dev nD) : (V1 m c main_call0_v3 : Cert.Attn.Mat) = (m ((c : Thread nD τ).loc main_arg3) : Cert.Attn.Mat) := by
  show StableHlo.after hostOps0 (fun b => m (c, b)) (Proc.devRef .tc main_call0_v3) = _
  after_results; rfl
theorem cast4 (c : Dev nD) : (V1 m c main_call0_v4 : Cert.Attn.Mat) = (m ((c : Thread nD τ).loc main_arg4) : Cert.Attn.Mat) := by
  show StableHlo.after hostOps0 (fun b => m (c, b)) (Proc.devRef .tc main_call0_v4) = _
  after_results; rfl

/-! ## What the mixing kernel finds -/

/-- x₂'s array is an input of the score kernel: unchanged by it. -/
theorem found_x2 (c : Dev nD) : V2 m c main_call0_v1 = V1 m c main_call0_v1 :=
  (W2_arr m c 1).trans (((dat0 (V1 m) c).arrAt_in 1 rfl _).trans (A_eq0 (V1 m) c 1))
/-- Wv's array is no array of the score kernel: unchanged by it. -/
theorem found_wv (c : Dev nD) : V2 m c main_call0_v4 = V1 m c main_call0_v4 :=
  W2_of_ne m c main_call0_v4 (by decide)
/-- The weights' array holds what the score kernel's write-backs left. -/
theorem found_w (c : Dev nD) : V2 m c main_call0_v5 = (dat0 (V1 m) c).arrAt 4 cfg0.N :=
  W2_arr m c 4

/-! ## The result -/

/-- The result array after the run is the specification of the argument arrays. -/
theorem result_eq (c : Dev nD) :
    ((dat1 (V2 m) c).arrAt 3 cfg1.N : Cert.Attn.Seqs)
      = Cert.Attn.G (m ((c : Thread nD τ).loc main_arg0)) (m ((c : Thread nD τ).loc main_arg1))
          (m ((c : Thread nD τ).loc main_arg2)) (m ((c : Thread nD τ).loc main_arg3)) (m ((c : Thread nD τ).loc main_arg4)) := by
  have hw : (V2 m c main_call0_v5 : Cert.Attn.Mats)
      = Cert.Attn.weightsArr (m ((c : Thread nD τ).loc main_arg0)) (m ((c : Thread nD τ).loc main_arg1))
          (m ((c : Thread nD τ).loc main_arg2)) (m ((c : Thread nD τ).loc main_arg3)) := by
    have h := weights_final (V1 m) c
    rw [cast0 m c, cast1 m c, cast2 m c, cast3 m c] at h
    exact (found_w m c).trans h
  have hx : (V2 m c main_call0_v1 : Cert.Attn.Seqs) = m ((c : Thread nD τ).loc main_arg1) :=
    (found_x2 m c).trans (cast1 m c)
  have hv : (V2 m c main_call0_v4 : Cert.Attn.Mat) = m ((c : Thread nD τ).loc main_arg4) :=
    (found_wv m c).trans (cast4 m c)
  have h := mix_final (V2 m) c
  rw [hx, hv, hw] at h
  exact h

/-- The idealized kernel's run with its result at the specification. -/
theorem run_G (ρ : Dev nD → PrngReg) : θ_run defs (onTc (τ := τ) (main (F := Ideal))) ⟨m, fun _ => 0, ρ⟩ (fun r => ∀ c : Dev nD,
      r.2.mem ((c.tc : Thread nD τ).loc main_v0)
        = Cert.Attn.G (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_eq m c), (h c).2⟩) (run_named m ρ)

end Cert.KernelIdeal.Val

end
-- ==== Proof.RefValue.lean ====
/-
  The reference program computes the specification.

  Read one operation at a time, at an index given by its coordinates, the reference is:
  three products of a batch of sequences with a square matrix (q, k and v, each entry a sum over the 1024 input
  features); the scores A[b,d,e] = Σ_s q[b,s,d] · k[b,s,e], a sum over the 4096 sequence positions; their product with
  1 / √1024, which is the literal 2⁻⁵; along e, the maximum of a row folded from −∞ and taken once more against −∞,
  the exponentials of the differences, their sum from 0, and the quotient — the softmax of the scaled row —; and the
  sum over d of v[b,s,d] against those weights. Each stage is identified with the specification's function of the
  same name at coordinates (b, s, d), (b, d, e) or (b, d); the −∞ word is the same on both sides and is never
  evaluated, and only the zero the sum starts from is read as the real 0.
-/
import proofs.«110314_j50130858279651_1_alg».proof.Defs
import proofs.«110314_j50130858279651_1_alg».proof.Proof.Gen.ReferenceIdeal.Run
import proofs.«110314_j50130858279651_1_alg».proof.Proof.Gen.ReferenceIdeal.Read
import proofs.«110314_j50130858279651_1_alg».proof.Proof.Gen.Pre_finite_inputs
import proofs.«110314_j50130858279651_1_alg».proof.Proof.Spec

noncomputable section

open Idealize.ShloMosaic Idealize.ShloMosaic.TcCoe Idealize.SL.Sem Idealize.ShloMosaic.ValueIdx
open scoped BigOperators

namespace Cert.ReferenceIdeal.RefValue

open Cert.ReferenceIdeal Cert.ReferenceIdeal.Gen Cert.ReferenceIdeal.Read Cert.Attn

/-! ## Read's index functions at coordinates -/

theorem lidx0 (b : Fin 8) (s : Fin 4096) (d k : Fin 1024) : lidx_main_v0 (ix3 b s d) k = ix3 b s k :=
  funext fun a => Fin.ext (by match a with | ⟨0, _⟩ => rfl | ⟨1, _⟩ => rfl | ⟨2, _⟩ => rfl)
theorem ridx0 (b : Fin 8) (s : Fin 4096) (d k : Fin 1024) : ridx_main_v0 (ix3 b s d) k = ix2 k d :=
  funext fun a => Fin.ext (by match a with | ⟨0, _⟩ => rfl | ⟨1, _⟩ => rfl)
theorem lidx1 (b : Fin 8) (s : Fin 4096) (d k : Fin 1024) : lidx_main_v1 (ix3 b s d) k = ix3 b s k :=
  funext fun a => Fin.ext (by match a with | ⟨0, _⟩ => rfl | ⟨1, _⟩ => rfl | ⟨2, _⟩ => rfl)
theorem ridx1 (b : Fin 8) (s : Fin 4096) (d k : Fin 1024) : ridx_main_v1 (ix3 b s d) k = ix2 k d :=
  funext fun a => Fin.ext (by match a with | ⟨0, _⟩ => rfl | ⟨1, _⟩ => rfl)
theorem lidx2 (b : Fin 8) (s : Fin 4096) (d k : Fin 1024) : lidx_main_v2 (ix3 b s d) k = ix3 b s k :=
  funext fun a => Fin.ext (by match a with | ⟨0, _⟩ => rfl | ⟨1, _⟩ => rfl | ⟨2, _⟩ => rfl)
theorem ridx2 (b : Fin 8) (s : Fin 4096) (d k : Fin 1024) : ridx_main_v2 (ix3 b s d) k = ix2 k d :=
  funext fun a => Fin.ext (by match a with | ⟨0, _⟩ => rfl | ⟨1, _⟩ => rfl)
theorem lidx3 (b : Fin 8) (d e : Fin 1024) (s : Fin 4096) : lidx_main_v3 (ix3 b d e) s = ix3 b s d :=
  funext fun a => Fin.ext (by match a with | ⟨0, _⟩ => rfl | ⟨1, _⟩ => rfl | ⟨2, _⟩ => rfl)
theorem ridx3 (b : Fin 8) (d e : Fin 1024) (s : Fin 4096) : ridx_main_v3 (ix3 b d e) s = ix3 b s e :=
  funext fun a => Fin.ext (by match a with | ⟨0, _⟩ => rfl | ⟨1, _⟩ => rfl | ⟨2, _⟩ => rfl)
theorem idx11_12 (b : Fin 8) (d e : Fin 1024) : idx_main_v11 (idx_main_v12 (ix3 b d e)) = ix2 b d :=
  funext fun a => Fin.ext (by match a with | ⟨0, _⟩ => rfl | ⟨1, _⟩ => rfl)
theorem idx15 (b : Fin 8) (d k : Fin 1024) : idx_main_v15 (ix2 b d) k = ix3 b d k :=
  funext fun a => Fin.ext (by match a with | ⟨0, _⟩ => rfl | ⟨1, _⟩ => rfl | ⟨2, _⟩ => rfl)
theorem idx16_17 (b : Fin 8) (d e : Fin 1024) : idx_main_v16 (idx_main_v17 (ix3 b d e)) = ix2 b d :=
  funext fun a => Fin.ext (by match a with | ⟨0, _⟩ => rfl | ⟨1, _⟩ => rfl)
theorem lidx19 (b : Fin 8) (s : Fin 4096) (e k : Fin 1024) : lidx_main_v19 (ix3 b s e) k = ix3 b s k :=
  funext fun a => Fin.ext (by match a with | ⟨0, _⟩ => rfl | ⟨1, _⟩ => rfl | ⟨2, _⟩ => rfl)
theorem ridx19 (b : Fin 8) (s : Fin 4096) (e k : Fin 1024) : ridx_main_v19 (ix3 b s e) k = ix3 b k e :=
  funext fun a => Fin.ext (by match a with | ⟨0, _⟩ => rfl | ⟨1, _⟩ => rfl | ⟨2, _⟩ => rfl)

/-! ## The three projections -/

theorem v0_at (x : Seqs) (w : Mat) (b : Fin 8) (s : Fin 4096) (d : Fin 1024) :
    val_main_v0 (F := Ideal) x w (ix3 b s d) = proj x w b s d := by
  rw [val_main_v0_apply]
  exact Finset.sum_congr rfl fun k _ => by rw [lidx0, ridx0]

theorem v1_at (x : Seqs) (w : Mat) (b : Fin 8) (s : Fin 4096) (d : Fin 1024) :
    val_main_v1 (F := Ideal) x w (ix3 b s d) = proj x w b s d := by
  rw [val_main_v1_apply]
  exact Finset.sum_congr rfl fun k _ => by rw [lidx1, ridx1]

theorem v2_at (x : Seqs) (w : Mat) (b : Fin 8) (s : Fin 4096) (d : Fin 1024) :
    val_main_v2 (F := Ideal) x w (ix3 b s d) = proj x w b s d := by
  rw [val_main_v2_apply]
  exact Finset.sum_congr rfl fun k _ => by rw [lidx2, ridx2]

/-! ## The scores and their scaling -/

theorem v3_at (x1 x2 : Seqs) (wq wk : Mat) (b : Fin 8) (d e : Fin 1024) :
    val_main_v3 (F := Ideal) x1 x2 wq wk (ix3 b d e) = scores x1 x2 wq wk b d e := by
  rw [val_main_v3_apply]
  exact Finset.sum_congr rfl fun s _ => by rw [lidx3, ridx3, v0_at, v1_at]; rfl

theorem v6_at (i : S8x1024x1024.Idx) : val_main_v6 (F := Ideal) i = scale := by
  rw [val_main_v6_apply, val_main_v5_apply, val_main_cst_0_apply, val_main_v4_apply, val_main_cst_apply]
  exact one_div_sqrt

theorem v7_at (x1 x2 : Seqs) (wq wk : Mat) (b : Fin 8) (d e : Fin 1024) :
    val_main_v7 (F := Ideal) x1 x2 wq wk (ix3 b d e) = scores x1 x2 wq wk b d e * scale := by
  rw [val_main_v7_apply, v3_at, v6_at]; rfl

/-! ## The softmax of a scaled row -/

/-- The scaled row (b, d) of the scores. -/
abbrev zrow (x1 x2 : Seqs) (wq wk : Mat) (b : Fin 8) (d : Fin 1024) : Fin 1024 → EReal :=
  fun e => scores x1 x2 wq wk b d e * scale

theorem red2 : S8x1024x1024.Reduces [2] S8x1024 := by decide

theorem lift2 (b : Fin 8) (d k : Fin 1024) : red2.lift (ix2 b d) k = ix3 b d k :=
  funext fun a => Fin.ext (by match a with | ⟨0, _⟩ => rfl | ⟨1, _⟩ => rfl | ⟨2, _⟩ => rfl)

theorem v8_at (x1 x2 : Seqs) (wq wk : Mat) (b : Fin 8) (d : Fin 1024) :
    val_main_v8 (F := Ideal) x1 x2 wq wk (ix2 b d) = Finset.univ.fold max ninf (zrow x1 x2 wq wk b d) := by
  unfold val_main_v8
  rw [Host.reduce_eq_fold_single FloatOps.maximumf _ _ reducesTo_S8x1024x1024_S8x1024_d2 red2 h_S_ (ix2 b d)]
  have e : (val_main_v7 (F := Ideal) x1 x2 wq wk ∘ red2.lift (ix2 b d)) = zrow x1 x2 wq wk b d :=
    funext fun (k : Fin 1024) =>
      (congrArg (val_main_v7 (F := Ideal) x1 x2 wq wk) (lift2 b d k)).trans (v7_at x1 x2 wq wk b d k)
  rw [e]
  rfl

theorem v10_at (x1 x2 : Seqs) (wq wk : Mat) (b : Fin 8) (d : Fin 1024) :
    val_main_v10 (F := Ideal) x1 x2 wq wk (ix2 b d) = rowMax (zrow x1 x2 wq wk b d) := by
  rw [val_main_v10_apply, val_main_v9_apply, val_main_cst_2_apply, v8_at]
  rfl

theorem v12_at (x1 x2 : Seqs) (wq wk : Mat) (b : Fin 8) (d e : Fin 1024) :
    val_main_v12 (F := Ideal) x1 x2 wq wk (ix3 b d e) = rowMax (zrow x1 x2 wq wk b d) := by
  rw [val_main_v12_apply, val_main_v11_apply, idx11_12, v10_at]

theorem v14_at (x1 x2 : Seqs) (wq wk : Mat) (b : Fin 8) (d e : Fin 1024) :
    val_main_v14 (F := Ideal) x1 x2 wq wk (ix3 b d e)
      = Ideal.exp (zrow x1 x2 wq wk b d e - rowMax (zrow x1 x2 wq wk b d)) := by
  rw [val_main_v14_apply, val_main_v13_apply, v7_at, v12_at]
  rfl

theorem v15_at (x1 x2 : Seqs) (wq wk : Mat) (b : Fin 8) (d : Fin 1024) :
    val_main_v15 (F := Ideal) x1 x2 wq wk (ix2 b d)
      = ∑ e' : Fin 1024, Ideal.exp (zrow x1 x2 wq wk b d e' - rowMax (zrow x1 x2 wq wk b d)) := by
  rw [val_main_v15_apply, val_main_cst_3_apply, Ideal.ofBits_def, Ideal.ofBits_zero_f32, zero_add]
  exact Finset.sum_congr rfl fun k _ => by rw [idx15, v14_at]

theorem v17_at (x1 x2 : Seqs) (wq wk : Mat) (b : Fin 8) (d e : Fin 1024) :
    val_main_v17 (F := Ideal) x1 x2 wq wk (ix3 b d e)
      = ∑ e' : Fin 1024, Ideal.exp (zrow x1 x2 wq wk b d e' - rowMax (zrow x1 x2 wq wk b d)) := by
  rw [val_main_v17_apply, val_main_v16_apply, idx16_17, v15_at]

theorem v18_at (x1 x2 : Seqs) (wq wk : Mat) (b : Fin 8) (d e : Fin 1024) :
    val_main_v18 (F := Ideal) x1 x2 wq wk (ix3 b d e) = weights x1 x2 wq wk b d e := by
  rw [val_main_v18_apply, v14_at, v17_at]
  rfl

/-- The reference's weights are the specification's, as arrays. -/
theorem v18_eq (x1 x2 : Seqs) (wq wk : Mat) :
    val_main_v18 (F := Ideal) x1 x2 wq wk = weightsArr x1 x2 wq wk := by
  funext i
  obtain ⟨b, d, e, rfl⟩ : ∃ (b : Fin 8) (d e : Fin 1024), i = ix3 b d e := ⟨i 0, i 1, i 2, eq_ix3 i⟩
  exact v18_at x1 x2 wq wk b d e

/-! ## The mixing of the values -/

theorem v19_at (x1 x2 : Seqs) (wq wk wv : Mat) (b : Fin 8) (s : Fin 4096) (e : Fin 1024) :
    val_main_v19 (F := Ideal) x1 x2 wq wk wv (ix3 b s e) = mix x2 wv (weightsArr x1 x2 wq wk) b s e := by
  rw [val_main_v19_apply]
  exact Finset.sum_congr rfl fun k _ => by rw [lidx19, ridx19, v2_at, v18_eq]

theorem v19_eq (x1 x2 : Seqs) (wq wk wv : Mat) :
    val_main_v19 (F := Ideal) x1 x2 wq wk wv = G x1 x2 wq wk wv := by
  funext i
  obtain ⟨b, s, e, rfl⟩ : ∃ (b : Fin 8) (s : Fin 4096) (e : Fin 1024), i = ix3 b s e := ⟨i 0, i 1, i 2, eq_ix3 i⟩
  exact v19_at x1 x2 wq wk wv b s e

/-- The reference's result, as a function of its five arguments, is the specification. -/
theorem result_eq (x1 x2 : FVec Ideal Cert.ReferenceIdeal.S8x4096x1024 .f32) (wq wk wv : FVec Ideal Cert.ReferenceIdeal.S1024x1024 .f32) :
    Host.dotGeneral dot_S8x4096x1024_S8x1024x1024_S8x4096x1024_2_1_1_2_0_0 none (Host.dotGeneral dot_S8x4096x1024_S1024x1024_S8x4096x1024_2_0_01_1_n_n none x2 wv) (Host.divf (Host.exp (subf (mulf (Host.dotGeneral dot_S8x4096x1024_S8x4096x1024_S8x1024x1024_1_1_2_2_0_0 none (Host.dotGeneral dot_S8x4096x1024_S1024x1024_S8x4096x1024_2_0_01_1_n_n none x1 wq) (Host.dotGeneral dot_S8x4096x1024_S1024x1024_S8x4096x1024_2_0_01_1_n_n none x2 wk)) (broadcastInDim S8x1024x1024 ![] bcast_S_S8x1024x1024 (Host.divf (constant S_ .f32 0x3F800000#32) (Host.sqrt (constant S_ .f32 0x44800000#32))))) (broadcastInDim S8x1024x1024 ![0, 1, 2] bcast_S8x1024x1_S8x1024x1024_0_1_2 (broadcastInDim S8x1024x1 ![0, 1] bcast_S8x1024_S8x1024x1_0_1 (maximumf (broadcastInDim S8x1024 ![] bcast_S_S8x1024 (constant S_ .f32 0xFF800000#32)) (Host.reduce FloatOps.maximumf (mulf (Host.dotGeneral dot_S8x4096x1024_S8x4096x1024_S8x1024x1024_1_1_2_2_0_0 none (Host.dotGeneral dot_S8x4096x1024_S1024x1024_S8x4096x1024_2_0_01_1_n_n none x1 wq) (Host.dotGeneral dot_S8x4096x1024_S1024x1024_S8x4096x1024_2_0_01_1_n_n none x2 wk)) (broadcastInDim S8x1024x1024 ![] bcast_S_S8x1024x1024 (Host.divf (constant S_ .f32 0x3F800000#32) (Host.sqrt (constant S_ .f32 0x44800000#32))))) (constant S_ .f32 0xFF800000#32) reducesTo_S8x1024x1024_S8x1024_d2 h_S_)))))) (broadcastInDim S8x1024x1024 ![0, 1, 2] bcast_S8x1024x1_S8x1024x1024_0_1_2 (broadcastInDim S8x1024x1 ![0, 1] bcast_S8x1024_S8x1024x1_0_1 (Host.reduceAdd (Host.exp (subf (mulf (Host.dotGeneral dot_S8x4096x1024_S8x4096x1024_S8x1024x1024_1_1_2_2_0_0 none (Host.dotGeneral dot_S8x4096x1024_S1024x1024_S8x4096x1024_2_0_01_1_n_n none x1 wq) (Host.dotGeneral dot_S8x4096x1024_S1024x1024_S8x4096x1024_2_0_01_1_n_n none x2 wk)) (broadcastInDim S8x1024x1024 ![] bcast_S_S8x1024x1024 (Host.divf (constant S_ .f32 0x3F800000#32) (Host.sqrt (constant S_ .f32 0x44800000#32))))) (broadcastInDim S8x1024x1024 ![0, 1, 2] bcast_S8x1024x1_S8x1024x1024_0_1_2 (broadcastInDim S8x1024x1 ![0, 1] bcast_S8x1024_S8x1024x1_0_1 (maximumf (broadcastInDim S8x1024 ![] bcast_S_S8x1024 (constant S_ .f32 0xFF800000#32)) (Host.reduce FloatOps.maximumf (mulf (Host.dotGeneral dot_S8x4096x1024_S8x4096x1024_S8x1024x1024_1_1_2_2_0_0 none (Host.dotGeneral dot_S8x4096x1024_S1024x1024_S8x4096x1024_2_0_01_1_n_n none x1 wq) (Host.dotGeneral dot_S8x4096x1024_S1024x1024_S8x4096x1024_2_0_01_1_n_n none x2 wk)) (broadcastInDim S8x1024x1024 ![] bcast_S_S8x1024x1024 (Host.divf (constant S_ .f32 0x3F800000#32) (Host.sqrt (constant S_ .f32 0x44800000#32))))) (constant S_ .f32 0xFF800000#32) reducesTo_S8x1024x1024_S8x1024_d2 h_S_)))))) (constant S_ .f32 0x00000000#32) reducesTo_S8x1024x1024_S8x1024_d2 h_S_))))
    = Cert.Attn.G x1 x2 wq wk wv :=
  (val_main_v19_eq (F := Ideal) x1 x2 wq wk wv).trans (v19_eq x1 x2 wq wk wv)

/-- The reference's run ends with the specification of its arguments in the result, the arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v19) = Cert.Attn.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono (fun _ h c => ⟨(h c).1.trans (result_eq _ _ _ _ _), (h c).2⟩)
    (Cert.ReferenceIdeal.Value.run (F := Ideal) m ρ)

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate of a feature-space attention kernel against its reference.

  Both programs compute, for x₁, x₂ : [8, 4096, 1024] and square Wq, Wk, Wv,
      out[b,s,e] = Σ_d (x₂·Wv)[b,s,d] · softmax_e( 2⁻⁵ · Σ_s (x₁·Wq)[b,s,d] · (x₂·Wk)[b,s,e] ).
  The kernel does it in two passes over the sequence: the first adds up the score matrix tile by tile in an accumulator
  and, at a batch's last tile, stores the softmax of its scaled rows; the second mixes the projected values with those
  weights. The reference does it with five whole-array contractions and divides by √1024 where the kernel multiplies by
  the literal 2⁻⁵. On the extended reals the two are one function of the arguments: a sum may be taken tile by tile,
  the casts to a narrower float format are the identity, and 1/√1024 is 2⁻⁵.

  The three frames: each kernel program's run is followed through its casts and its two kernels (once, for any float
  instance); the reference's is its generated run. The idealization rewrote nothing, so there is nothing to preserve.
-/
import proofs.«110314_j50130858279651_1_alg».proof.Defs
import proofs.«110314_j50130858279651_1_alg».proof.Proof.Gen.Kernel
import proofs.«110314_j50130858279651_1_alg».proof.Proof.Gen.KernelIdeal
import proofs.«110314_j50130858279651_1_alg».proof.Proof.Gen.ReferenceIdeal
import proofs.«110314_j50130858279651_1_alg».proof.Proof.Gen.Pre_finite_inputs
import proofs.«110314_j50130858279651_1_alg».proof.Proof.KRun
import proofs.«110314_j50130858279651_1_alg».proof.Proof.KiRun
import proofs.«110314_j50130858279651_1_alg».proof.Proof.KiVal
import proofs.«110314_j50130858279651_1_alg».proof.Proof.RefValue

noncomputable section

namespace Cert.Proof

open Idealize.ShloMosaic Idealize.ShloMosaic.TcCoe Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does the idealized one. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- From memories agreeing on the arguments both idealized programs end with the specification of those arguments in
    their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Val.run_G m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
